-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128 : Shape := ⟨2, ![16, 128]⟩
abbrev S32x32x1x1 : Shape := ⟨4, ![32, 32, 1, 1]⟩
abbrev S50000x32 : Shape := ⟨2, ![50000, 32]⟩
abbrev S_ : Shape := ⟨0, ![]⟩

class Facts : Prop where
  bcast_S_S32x32x1x1 : S_.BroadcastsInDim S32x32x1x1 (![] : Fin 0 → Fin S32x32x1x1.rank)
  reducesTo_S32x32x1x1_S_d0_1_2_3 : S32x32x1x1.ReducesTo [0, 1, 2, 3] S_
  h_S_ : 0 < S_.numel
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg5 : FVec F S50000x32 .f32) (main_arg6 : FVec F S50000x32 .f32) (main_v13 : IVec S_ 1) (main_v16 : IVec S32x32x1x1 1) : IVec S_ 1 :=
  let main_c_5 : IVec S_ 1 := constantI S_ 1 1#1
  let main_v17 : IVec S_ 1 := (fun x v => Host.reduce IntOp.andi x v reducesTo_S32x32x1x1_S_d0_1_2_3 h_S_) main_v16 main_c_5
  let main_v18 : IVec S_ 1 := andi main_v13 main_v17
  let main_v19 : FVec F S50000x32 .f32 := Host.absf main_arg5
  let main_cst_6 : FVec F S_ .f32 := constant S_ .f32 0x7F800000#32
  let main_v20 : FVec F S50000x32 .f32 := broadcastInDim S50000x32 ![] bcast_S_S50000x32 main_cst_6
  let main_v21 : IVec S50000x32 1 := cmpf .olt main_v19 main_v20
  let main_c_7 : IVec S_ 1 := constantI S_ 1 1#1
  let main_v22 : IVec S_ 1 := (fun x v => Host.reduce IntOp.andi x v reducesTo_S50000x32_S_d0_1 h_S_) main_v21 main_c_7
  let main_v23 : IVec S_ 1 := andi main_v18 main_v22
  let main_v24 : FVec F S50000x32 .f32 := Host.absf main_arg6
  let main_cst_8 : FVec F S_ .f32 := constant S_ .f32 0x7F800000#32
  let main_v25 : FVec F S50000x32 .f32 := broadcastInDim S50000x32 ![] bcast_S_S50000x32 main_cst_8
  let main_v26 : IVec S50000x32 1 := cmpf .olt main_v24 main_v25
  let main_c_9 : IVec S_ 1 := constantI S_ 1 1#1
  let main_v27 : IVec S_ 1 := (fun x v => Host.reduce IntOp.andi x v reducesTo_S50000x32_S_d0_1 h_S_) main_v26 main_c_9
  let main_v28 : IVec S_ 1 := andi main_v23 main_v27
  main_v28

def fn {F : FTy → Type} [FloatOps F] (main_arg0 : IVec S16x128 32) (main_arg1 : FVec F S32x32x1x1 .f32) (main_arg2 : FVec F S32x32x1x1 .f32) (main_arg3 : FVec F S32x32x1x1 .f32) (main_arg4 : FVec F S32x32x1x1 .f32) (main_arg5 : FVec F S50000x32 .f32) (main_arg6 : FVec F S50000x32 .f32) : IVec S_ 1 :=
  let main_v0 : FVec F S32x32x1x1 .f32 := Host.absf main_arg1
  let main_cst : FVec F S_ .f32 := constant S_ .f32 0x7F800000#32
  let main_v1 : FVec F S32x32x1x1 .f32 := broadcastInDim S32x32x1x1 ![] bcast_S_S32x32x1x1 main_cst
  let main_v2 : IVec S32x32x1x1 1 := cmpf .olt main_v0 main_v1
  let main_c : IVec S_ 1 := constantI S_ 1 1#1
  let main_v3 : IVec S_ 1 := (fun x v => Host.reduce IntOp.andi x v reducesTo_S32x32x1x1_S_d0_1_2_3 h_S_) main_v2 main_c
  let main_v4 : FVec F S32x32x1x1 .f32 := Host.absf main_arg2
  let main_cst_0 : FVec F S_ .f32 := constant S_ .f32 0x7F800000#32
  let main_v5 : FVec F S32x32x1x1 .f32 := broadcastInDim S32x32x1x1 ![] bcast_S_S32x32x1x1 main_cst_0
  let main_v6 : IVec S32x32x1x1 1 := cmpf .olt main_v4 main_v5
  let main_c_1 : IVec S_ 1 := constantI S_ 1 1#1
  let main_v7 : IVec S_ 1 := (fun x v => Host.reduce IntOp.andi x v reducesTo_S32x32x1x1_S_d0_1_2_3 h_S_) main_v6 main_c_1
  let main_v8 : IVec S_ 1 := andi main_v3 main_v7
  let main_v9 : FVec F S32x32x1x1 .f32 := Host.absf main_arg3
  let main_cst_2 : FVec F S_ .f32 := constant S_ .f32 0x7F800000#32
  let main_v10 : FVec F S32x32x1x1 .f32 := broadcastInDim S32x32x1x1 ![] bcast_S_S32x32x1x1 main_cst_2
  let main_v11 : IVec S32x32x1x1 1 := cmpf .olt main_v9 main_v10
  let main_c_3 : IVec S_ 1 := constantI S_ 1 1#1
  let main_v12 : IVec S_ 1 := (fun x v => Host.reduce IntOp.andi x v reducesTo_S32x32x1x1_S_d0_1_2_3 h_S_) main_v11 main_c_3
  let main_v13 : IVec S_ 1 := andi main_v8 main_v12
  let main_v14 : FVec F S32x32x1x1 .f32 := Host.absf main_arg4
  let main_cst_4 : FVec F S_ .f32 := constant S_ .f32 0x7F800000#32
  let main_v15 : FVec F S32x32x1x1 .f32 := broadcastInDim S32x32x1x1 ![] bcast_S_S32x32x1x1 main_cst_4
  let main_v16 : IVec S32x32x1x1 1 := cmpf .olt main_v14 main_v15
  fn_part1 (F := F) main_arg5 main_arg6 main_v13 main_v16
-- ==== Kernel.lean ====
abbrev S16x128 : Shape := ⟨2, ![16, 128]⟩
abbrev S32x32x1x1 : Shape := ⟨4, ![32, 32, 1, 1]⟩
abbrev S50000x32 : Shape := ⟨2, ![50000, 32]⟩
abbrev S32x32 : Shape := ⟨2, ![32, 32]⟩
abbrev S_ : Shape := ⟨0, ![]⟩
abbrev S16x128x1 : Shape := ⟨3, ![16, 128, 1]⟩
abbrev S16x128x32 : Shape := ⟨3, ![16, 128, 32]⟩
abbrev S16x128x32x32 : Shape := ⟨4, ![16, 128, 32, 32]⟩
abbrev S1x128x32 : Shape := ⟨3, ![1, 128, 32]⟩
abbrev S1x128x32x32 : Shape := ⟨4, ![1, 128, 32, 32]⟩
abbrev S128x32 : Shape := ⟨2, ![128, 32]⟩
abbrev S128x1x32 : Shape := ⟨3, ![128, 1, 32]⟩
abbrev S1x32x32 : Shape := ⟨3, ![1, 32, 32]⟩
abbrev S128x32x32 : Shape := ⟨3, ![128, 32, 32]⟩
abbrev S16x127x32x32 : Shape := ⟨4, ![16, 127, 32, 32]⟩
abbrev S65024x32 : Shape := ⟨2, ![65024, 32]⟩
abbrev S65024x32x32 : Shape := ⟨3, ![65024, 32, 32]⟩
abbrev S1016x32 : Shape := ⟨2, ![1016, 32]⟩
abbrev S1016x32x32 : Shape := ⟨3, ![1016, 32, 32]⟩
abbrev S1016x32x1 : Shape := ⟨3, ![1016, 32, 1]⟩
abbrev S16x127x32x32x32x1x1x1 : Shape := ⟨8, ![16, 127, 32, 32, 32, 1, 1, 1]⟩
abbrev S16x128x32x32x1x1x1 : Shape := ⟨7, ![16, 128, 32, 32, 1, 1, 1]⟩
abbrev S1x1x32x32x1x1 : Shape := ⟨6, ![1, 1, 32, 32, 1, 1]⟩
abbrev S16x128x32x32x1x1 : Shape := ⟨6, ![16, 128, 32, 32, 1, 1]⟩

abbrev nBuf : Space → Nat
  | .hbm => 43
  | .vmem => 18
  | .smem => 0
  | _ => 0

abbrev bufTy : (tb : Table) → Fin (tcTables nBuf tb) → BufTy
  | .hbm, ⟨0, _⟩ => ⟨S16x128, .i32⟩
  | .hbm, ⟨1, _⟩ => ⟨S32x32x1x1, .f32⟩
  | .hbm, ⟨2, _⟩ => ⟨S32x32x1x1, .f32⟩
  | .hbm, ⟨3, _⟩ => ⟨S32x32x1x1, .f32⟩
  | .hbm, ⟨4, _⟩ => ⟨S32x32x1x1, .f32⟩
  | .hbm, ⟨5, _⟩ => ⟨S50000x32, .f32⟩
  | .hbm, ⟨6, _⟩ => ⟨S50000x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S_, .i32⟩
  | .hbm, ⟨12, _⟩ => ⟨S16x128, .i32⟩
  | .hbm, ⟨13, _⟩ => ⟨S16x128, .i1⟩
  | .hbm, ⟨14, _⟩ => ⟨S_, .i32⟩
  | .hbm, ⟨15, _⟩ => ⟨S16x128, .i32⟩
  | .hbm, ⟨16, _⟩ => ⟨S16x128, .i32⟩
  | .hbm, ⟨17, _⟩ => ⟨S16x128, .i32⟩
  | .hbm, ⟨18, _⟩ => ⟨S16x128x1, .i32⟩
  | .hbm, ⟨19, _⟩ => ⟨S16x128x32, .f32⟩
  | .hbm, ⟨20, _⟩ => ⟨S_, .i32⟩
  | .hbm, ⟨21, _⟩ => ⟨S16x128, .i32⟩
  | .hbm, ⟨22, _⟩ => ⟨S16x128, .i1⟩
  | .hbm, ⟨23, _⟩ => ⟨S_, .i32⟩
  | .hbm, ⟨24, _⟩ => ⟨S16x128, .i32⟩
  | .hbm, ⟨25, _⟩ => ⟨S16x128, .i32⟩
  | .hbm, ⟨26, _⟩ => ⟨S16x128, .i32⟩
  | .hbm, ⟨27, _⟩ => ⟨S16x128x1, .i32⟩
  | .hbm, ⟨28, _⟩ => ⟨S16x128x32, .f32⟩
  | .hbm, ⟨29, _⟩ => ⟨S16x128x32x32, .f32⟩
  | .hbm, ⟨30, _⟩ => ⟨S16x128x32x32, .f32⟩
  | .hbm, ⟨31, _⟩ => ⟨S16x127x32x32, .f32⟩
  | .hbm, ⟨32, _⟩ => ⟨S16x127x32x32, .f32⟩
  | .hbm, ⟨33, _⟩ => ⟨S65024x32, .f32⟩
  | .hbm, ⟨34, _⟩ => ⟨S65024x32, .f32⟩
  | .hbm, ⟨35, _⟩ => ⟨S65024x32x32, .f32⟩
  | .hbm, ⟨36, _⟩ => ⟨S16x127x32x32x32x1x1x1, .f32⟩
  | .hbm, ⟨37, _⟩ => ⟨S16x128x32x32x1x1x1, .f32⟩
  | .hbm, ⟨38, _⟩ => ⟨S16x128x32x32x1x1x1, .f32⟩
  | .hbm, ⟨39, _⟩ => ⟨S1x1x32x32x1x1, .f32⟩
  | .hbm, ⟨40, _⟩ => ⟨S16x128x32x32x1x1, .f32⟩
  | .hbm, ⟨41, _⟩ => ⟨S1x1x32x32x1x1, .f32⟩
  | .hbm, ⟨42, _⟩ => ⟨S16x128x32x32x1x1, .f32⟩
  | .local _ .vmem, ⟨0, _⟩ => ⟨S1x128x32, .f32⟩
  | .local _ .vmem, ⟨1, _⟩ => ⟨S1x128x32, .f32⟩
  | .local _ .vmem, ⟨2, _⟩ => ⟨S1x128x32, .f32⟩
  | .local _ .vmem, ⟨3, _⟩ => ⟨S1x128x32, .f32⟩
  | .local _ .vmem, ⟨4, _⟩ => ⟨S32x32, .f32⟩
  | .local _ .vmem, ⟨5, _⟩ => ⟨S32x32, .f32⟩
  | .local _ .vmem, ⟨6, _⟩ => ⟨S1x128x32x32, .f32⟩
  | .local _ .vmem, ⟨7, _⟩ => ⟨S1x128x32x32, .f32⟩
  | .local _ .vmem, ⟨8, _⟩ => ⟨S1x128x32x32, .f32⟩
  | .local _ .vmem, ⟨9, _⟩ => ⟨S1x128x32x32, .f32⟩
  | .local _ .vmem, ⟨10, _⟩ => ⟨S1016x32, .f32⟩
  | .local _ .vmem, ⟨11, _⟩ => ⟨S1016x32, .f32⟩
  | .local _ .vmem, ⟨12, _⟩ => ⟨S1016x32, .f32⟩
  | .local _ .vmem, ⟨13, _⟩ => ⟨S1016x32, .f32⟩
  | .local _ .vmem, ⟨14, _⟩ => ⟨S32x32, .f32⟩
  | .local _ .vmem, ⟨15, _⟩ => ⟨S32x32, .f32⟩
  | .local _ .vmem, ⟨16, _⟩ => ⟨S1016x32x32, .f32⟩
  | .local _ .vmem, ⟨17, _⟩ => ⟨S1016x32x32, .f32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1016x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1016x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1016x32x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32x32x1x1_S32x32 : S32x32x1x1.ShapeCasts S32x32
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S128x32_S128x1x32 : S128x32.ShapeCasts S128x1x32
  shapeCasts_S32x32_S1x32x32 : S32x32.ShapeCasts S1x32x32
  broadcasts_S128x1x32_S128x32x32 : S128x1x32.Broadcasts S128x32x32
  broadcasts_S1x32x32_S128x32x32 : S1x32x32.Broadcasts S128x32x32
  inb_S1x128x32x32_S1x128x32x32_0_0_0_0 : ∀ a, (![0, 0, 0, 0] : Fin 4 → Nat) a + S1x128x32x32.size a ≤ S1x128x32x32.size a
  h_S1x128x32x32 : 0 < S1x128x32x32.numel
  shapeCasts_S1x128x32x32_S128x32x32 : S1x128x32x32.ShapeCasts S128x32x32
  shapeCasts_S128x32x32_S1x128x32x32 : S128x32x32.ShapeCasts S1x128x32x32
  slices_S16x128x32x32_S16x127x32x32_0_0_0_0 : S16x128x32x32.Slices ![0, 0, 0, 0] S16x127x32x32
  shapeCasts_S16x127x32x32_S65024x32 : S16x127x32x32.ShapeCasts S65024x32
  inb_S1016x32_S1016x32_0_0 : ∀ a, (![0, 0] : Fin 2 → Nat) a + S1016x32.size a ≤ S1016x32.size a
  h_S1016x32 : 0 < S1016x32.numel
  shapeCasts_S1016x32_S1016x32 : S1016x32.ShapeCasts S1016x32
  shapeCasts_S1016x32_S1016x32x1 : S1016x32.ShapeCasts S1016x32x1
  broadcasts_S1016x32x1_S1016x32x32 : S1016x32x1.Broadcasts S1016x32x32
  broadcasts_S1x32x32_S1016x32x32 : S1x32x32.Broadcasts S1016x32x32
  inb_S1016x32x32_S1016x32x32_0_0_0 : ∀ a, (![0, 0, 0] : Fin 3 → Nat) a + S1016x32x32.size a ≤ S1016x32x32.size a
  h_S1016x32x32 : 0 < S1016x32x32.numel
  shapeCasts_S65024x32x32_S16x127x32x32x32x1x1x1 : S65024x32x32.ShapeCasts S16x127x32x32x32x1x1x1
  shapeCasts_S16x128x32x32_S16x128x32x32x1x1x1 : S16x128x32x32.ShapeCasts S16x128x32x32x1x1x1
  shapeCasts_S32x32_S1x1x32x32x1x1 : S32x32.ShapeCasts S1x1x32x32x1x1
  bcast_S1x1x32x32x1x1_S16x128x32x32x1x1_0_1_2_3_4_5 : S1x1x32x32x1x1.BroadcastsInDim S16x128x32x32x1x1 (![0, 1, 2, 3, 4, 5] : Fin 6 → Fin S16x128x32x32x1x1.rank)
  gather_S50000x32_S16x128x1_S16x128x32_2_0_n_n_0_2_132_wf : GatherDims.WF S50000x32 S16x128x1 S16x128x32 [2] [0] [] [0] [] 2 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32.size a ≤ S16x128x32.size a
  hwx0_0 : ∀ i : grid0.Coords, EltTy.bits .f32 = 32 ∨ (Rect.block (s := S16x128x32) S1x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32.size a ≤ S16x128x32.size a
  hwx0_1 : ∀ i : grid0.Coords, EltTy.bits .f32 = 32 ∨ (Rect.block (s := S16x128x32) S1x128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x32.size a ≤ S16x128x32x32.size a
  hwx0_4 : ∀ i : grid0.Coords, EltTy.bits .f32 = 32 ∨ (Rect.block (s := S16x128x32x32) S1x128x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32x32.size a ≤ S16x128x32x32.size a
  hwx0_5 : ∀ i : grid0.Coords, EltTy.bits .f32 = 32 ∨ (Rect.block (s := S16x128x32x32) S1x128x32x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1016x32.size a ≤ S65024x32.size a
  hwx1_0 : ∀ i : grid1.Coords, EltTy.bits .f32 = 32 ∨ (Rect.block (s := S65024x32) S1016x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1016x32.size a ≤ S65024x32.size a
  hwx1_1 : ∀ i : grid1.Coords, EltTy.bits .f32 = 32 ∨ (Rect.block (s := S65024x32) S1016x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1016x32x32.size a ≤ S65024x32x32.size a
  hwx1_4 : ∀ i : grid1.Coords, EltTy.bits .f32 = 32 ∨ (Rect.block (s := S65024x32x32) S1016x32x32.size (cc1_transform_4 i) (hinb1_4 i)).WholeWords (EltTy.packing .f32)

variable [Facts₀]

def gather_S50000x32_S16x128x1_S16x128x32_2_0_n_n_0_2_132 : GatherDims S50000x32 S16x128x1 S16x128x32 where
  offsetDims := [2]
  collapsedSliceDims := [0]
  operandBatchingDims := []
  startIndicesBatchingDims := []
  startIndexMap := [0]
  indexVectorDim := 2
  sliceSizes := ![1, 32]
  wf := gather_S50000x32_S16x128x1_S16x128x32_2_0_n_n_0_2_132_wf

abbrev win0_0 : Pipeline.Window sig grid0 :=
  Pipeline.Window.ofSpec (Memref.whole main_v10) S1x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x128x32x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x128x32x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S1016x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1016x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1016x32x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x128 : Shape := ⟨2, ![16, 128]⟩
abbrev S32x32x1x1 : Shape := ⟨4, ![32, 32, 1, 1]⟩
abbrev S50000x32 : Shape := ⟨2, ![50000, 32]⟩
abbrev S_ : Shape := ⟨0, ![]⟩
abbrev S16x128x1 : Shape := ⟨3, ![16, 128, 1]⟩
abbrev S16x128x32 : Shape := ⟨3, ![16, 128, 32]⟩
abbrev S16x128x32x1x1 : Shape := ⟨5, ![16, 128, 32, 1, 1]⟩
abbrev S16x128x1x32x1x1x1 : Shape := ⟨7, ![16, 128, 1, 32, 1, 1, 1]⟩
abbrev S1x1x32x32x1x1x1 : Shape := ⟨7, ![1, 1, 32, 32, 1, 1, 1]⟩
abbrev S16x128x32x32x1x1x1 : Shape := ⟨7, ![16, 128, 32, 32, 1, 1, 1]⟩
abbrev S16x128x32x32x1x1 : Shape := ⟨6, ![16, 128, 32, 32, 1, 1]⟩
abbrev S16x127x32x32x1x1x1 : Shape := ⟨7, ![16, 127, 32, 32, 1, 1, 1]⟩
abbrev S16x127x32x32x1x1x1x1x1 : Shape := ⟨9, ![16, 127, 32, 32, 1, 1, 1, 1, 1]⟩
abbrev S1x1x1x32x32x1x1x1x1 : Shape := ⟨9, ![1, 1, 1, 32, 32, 1, 1, 1, 1]⟩
abbrev S16x127x32x32x32x1x1x1x1 : Shape := ⟨9, ![16, 127, 32, 32, 32, 1, 1, 1, 1]⟩
abbrev S16x127x32x32x32x1x1x1 : Shape := ⟨8, ![16, 127, 32, 32, 32, 1, 1, 1]⟩
abbrev S1x1x32x32x1x1 : Shape := ⟨6, ![1, 1, 32, 32, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S16x128, .i32⟩
  | .hbm, ⟨1, _⟩ => ⟨S32x32x1x1, .f32⟩
  | .hbm, ⟨2, _⟩ => ⟨S32x32x1x1, .f32⟩
  | .hbm, ⟨3, _⟩ => ⟨S32x32x1x1, .f32⟩
  | .hbm, ⟨4, _⟩ => ⟨S32x32x1x1, .f32⟩
  | .hbm, ⟨5, _⟩ => ⟨S50000x32, .f32⟩
  | .hbm, ⟨6, _⟩ => ⟨S50000x32, .f32⟩
  | .hbm, ⟨7, _⟩ => ⟨S_, .i32⟩
  | .hbm, ⟨8, _⟩ => ⟨S16x128, .i32⟩
  | .hbm, ⟨9, _⟩ => ⟨S16x128, .i1⟩
  | .hbm, ⟨10, _⟩ => ⟨S_, .i32⟩
  | .hbm, ⟨11, _⟩ => ⟨S16x128, .i32⟩
  | .hbm, ⟨12, _⟩ => ⟨S16x128, .i32⟩
  | .hbm, ⟨13, _⟩ => ⟨S16x128, .i32⟩
  | .hbm, ⟨14, _⟩ => ⟨S16x128x1, .i32⟩
  | .hbm, ⟨15, _⟩ => ⟨S16x128x32, .f32⟩
  | .hbm, ⟨16, _⟩ => ⟨S16x128x32x1x1, .f32⟩
  | .hbm, ⟨17, _⟩ => ⟨S_, .i32⟩
  | .hbm, ⟨18, _⟩ => ⟨S16x128, .i32⟩
  | .hbm, ⟨19, _⟩ => ⟨S16x128, .i1⟩
  | .hbm, ⟨20, _⟩ => ⟨S_, .i32⟩
  | .hbm, ⟨21, _⟩ => ⟨S16x128, .i32⟩
  | .hbm, ⟨22, _⟩ => ⟨S16x128, .i32⟩
  | .hbm, ⟨23, _⟩ => ⟨S16x128, .i32⟩
  | .hbm, ⟨24, _⟩ => ⟨S16x128x1, .i32⟩
  | .hbm, ⟨25, _⟩ => ⟨S16x128x32, .f32⟩
  | .hbm, ⟨26, _⟩ => ⟨S16x128x32x1x1, .f32⟩
  | .hbm, ⟨27, _⟩ => ⟨S16x128x1x32x1x1x1, .f32⟩
  | .hbm, ⟨28, _⟩ => ⟨S16x128x1x32x1x1x1, .f32⟩
  | .hbm, ⟨29, _⟩ => ⟨S1x1x32x32x1x1x1, .f32⟩
  | .hbm, ⟨30, _⟩ => ⟨S1x1x32x32x1x1x1, .f32⟩
  | .hbm, ⟨31, _⟩ => ⟨S_, .f32⟩
  | .hbm, ⟨32, _⟩ => ⟨S16x128x1x32x1x1x1, .f32⟩
  | .hbm, ⟨33, _⟩ => ⟨S16x128x1x32x1x1x1, .f32⟩
  | .hbm, ⟨34, _⟩ => ⟨S16x128x1x32x1x1x1, .f32⟩
  | .hbm, ⟨35, _⟩ => ⟨S_, .f32⟩
  | .hbm, ⟨36, _⟩ => ⟨S1x1x32x32x1x1x1, .f32⟩
  | .hbm, ⟨37, _⟩ => ⟨S1x1x32x32x1x1x1, .f32⟩
  | .hbm, ⟨38, _⟩ => ⟨S1x1x32x32x1x1x1, .f32⟩
  | .hbm, ⟨39, _⟩ => ⟨S16x128x32x32x1x1x1, .f32⟩
  | .hbm, ⟨40, _⟩ => ⟨S16x128x32x32x1x1x1, .f32⟩
  | .hbm, ⟨41, _⟩ => ⟨S16x128x32x32x1x1x1, .f32⟩
  | .hbm, ⟨42, _⟩ => ⟨S16x128x32x32x1x1x1, .f32⟩
  | .hbm, ⟨43, _⟩ => ⟨S_, .f32⟩
  | .hbm, ⟨44, _⟩ => ⟨S16x128x32x32x1x1x1, .f32⟩
  | .hbm, ⟨45, _⟩ => ⟨S16x128x32x32x1x1x1, .f32⟩
  | .hbm, ⟨46, _⟩ => ⟨S16x128x32x32x1x1x1, .f32⟩
  | .hbm, ⟨47, _⟩ => ⟨S16x128x32x32x1x1x1, .f32⟩
  | .hbm, ⟨48, _⟩ => ⟨S16x128x32x32x1x1x1, .f32⟩
  | .hbm, ⟨49, _⟩ => ⟨S16x128x32x32x1x1x1, .f32⟩
  | .hbm, ⟨50, _⟩ => ⟨S16x128x32x32x1x1x1, .f32⟩
  | .hbm, ⟨51, _⟩ => ⟨S16x128x32x32x1x1x1, .f32⟩
  | .hbm, ⟨52, _⟩ => ⟨S_, .f32⟩
  | .hbm, ⟨53, _⟩ => ⟨S16x128x32x32x1x1x1, .f32⟩
  | .hbm, ⟨54, _⟩ => ⟨S16x128x32x32x1x1x1, .f32⟩
  | .hbm, ⟨55, _⟩ => ⟨S16x128x32x32x1x1x1, .f32⟩
  | .hbm, ⟨56, _⟩ => ⟨S16x128x32x32x1x1x1, .f32⟩
  | .hbm, ⟨57, _⟩ => ⟨S16x128x32x32x1x1x1, .f32⟩
  | .hbm, ⟨58, _⟩ => ⟨S16x128x32x32x1x1x1, .f32⟩
  | .hbm, ⟨59, _⟩ => ⟨S16x128x32x32x1x1x1, .f32⟩
  | .hbm, ⟨60, _⟩ => ⟨S16x128x32x32x1x1x1, .f32⟩
  | .hbm, ⟨61, _⟩ => ⟨S16x128x32x32x1x1x1, .f32⟩
  | .hbm, ⟨62, _⟩ => ⟨S16x128x32x32x1x1x1, .f32⟩
  | .hbm, ⟨63, _⟩ => ⟨S16x128x32x32x1x1x1, .f32⟩
  | .hbm, ⟨64, _⟩ => ⟨S16x128x32x32x1x1x1, .f32⟩
  | .hbm, ⟨65, _⟩ => ⟨S16x128x32x32x1x1x1, .f32⟩
  | .hbm, ⟨66, _⟩ => ⟨S_, .f32⟩
  | .hbm, ⟨67, _⟩ => ⟨S16x128x32x32x1x1x1, .f32⟩
  | .hbm, ⟨68, _⟩ => ⟨S16x128x32x32x1x1x1, .f32⟩
  | .hbm, ⟨69, _⟩ => ⟨S16x128x32x32x1x1x1, .f32⟩
  | .hbm, ⟨70, _⟩ => ⟨S_, .f32⟩
  | .hbm, ⟨71, _⟩ => ⟨S16x128x32x32x1x1, .f32⟩
  | .hbm, ⟨72, _⟩ => ⟨S16x127x32x32x1x1x1, .f32⟩
  | .hbm, ⟨73, _⟩ => ⟨S16x127x32x32x1x1x1x1x1, .f32⟩
  | .hbm, ⟨74, _⟩ => ⟨S16x127x32x32x1x1x1, .f32⟩
  | .hbm, ⟨75, _⟩ => ⟨S16x127x32x32x1x1x1x1x1, .f32⟩
  | .hbm, ⟨76, _⟩ => ⟨S1x1x1x32x32x1x1x1x1, .f32⟩
  | .hbm, ⟨77, _⟩ => ⟨S1x1x1x32x32x1x1x1x1, .f32⟩
  | .hbm, ⟨78, _⟩ => ⟨S_, .f32⟩
  | .hbm, ⟨79, _⟩ => ⟨S16x127x32x32x1x1x1x1x1, .f32⟩
  | .hbm, ⟨80, _⟩ => ⟨S16x127x32x32x1x1x1x1x1, .f32⟩
  | .hbm, ⟨81, _⟩ => ⟨S16x127x32x32x1x1x1x1x1, .f32⟩
  | .hbm, ⟨82, _⟩ => ⟨S_, .f32⟩
  | .hbm, ⟨83, _⟩ => ⟨S1x1x1x32x32x1x1x1x1, .f32⟩
  | .hbm, ⟨84, _⟩ => ⟨S1x1x1x32x32x1x1x1x1, .f32⟩
  | .hbm, ⟨85, _⟩ => ⟨S1x1x1x32x32x1x1x1x1, .f32⟩
  | .hbm, ⟨86, _⟩ => ⟨S16x127x32x32x32x1x1x1x1, .f32⟩
  | .hbm, ⟨87, _⟩ => ⟨S16x127x32x32x32x1x1x1x1, .f32⟩
  | .hbm, ⟨88, _⟩ => ⟨S16x127x32x32x32x1x1x1x1, .f32⟩
  | .hbm, ⟨89, _⟩ => ⟨S16x127x32x32x32x1x1x1x1, .f32⟩
  | .hbm, ⟨90, _⟩ => ⟨S_, .f32⟩
  | .hbm, ⟨91, _⟩ => ⟨S16x127x32x32x32x1x1x1x1, .f32⟩
  | .hbm, ⟨92, _⟩ => ⟨S16x127x32x32x32x1x1x1x1, .f32⟩
  | .hbm, ⟨93, _⟩ => ⟨S16x127x32x32x32x1x1x1x1, .f32⟩
  | .hbm, ⟨94, _⟩ => ⟨S16x127x32x32x32x1x1x1x1, .f32⟩
  | .hbm, ⟨95, _⟩ => ⟨S16x127x32x32x32x1x1x1x1, .f32⟩
  | .hbm, ⟨96, _⟩ => ⟨S16x127x32x32x32x1x1x1x1, .f32⟩
  | .hbm, ⟨97, _⟩ => ⟨S16x127x32x32x32x1x1x1x1, .f32⟩
  | .hbm, ⟨98, _⟩ => ⟨S16x127x32x32x32x1x1x1x1, .f32⟩
  | .hbm, ⟨99, _⟩ => ⟨S_, .f32⟩
  | .hbm, ⟨100, _⟩ => ⟨S16x127x32x32x32x1x1x1x1, .f32⟩
  | .hbm, ⟨101, _⟩ => ⟨S16x127x32x32x32x1x1x1x1, .f32⟩
  | .hbm, ⟨102, _⟩ => ⟨S16x127x32x32x32x1x1x1x1, .f32⟩
  | .hbm, ⟨103, _⟩ => ⟨S16x127x32x32x32x1x1x1x1, .f32⟩
  | .hbm, ⟨104, _⟩ => ⟨S16x127x32x32x32x1x1x1x1, .f32⟩
  | .hbm, ⟨105, _⟩ => ⟨S16x127x32x32x32x1x1x1x1, .f32⟩
  | .hbm, ⟨106, _⟩ => ⟨S16x127x32x32x32x1x1x1x1, .f32⟩
  | .hbm, ⟨107, _⟩ => ⟨S16x127x32x32x32x1x1x1x1, .f32⟩
  | .hbm, ⟨108, _⟩ => ⟨S16x127x32x32x32x1x1x1x1, .f32⟩
  | .hbm, ⟨109, _⟩ => ⟨S16x127x32x32x32x1x1x1x1, .f32⟩
  | .hbm, ⟨110, _⟩ => ⟨S16x127x32x32x32x1x1x1x1, .f32⟩
  | .hbm, ⟨111, _⟩ => ⟨S16x127x32x32x32x1x1x1x1, .f32⟩
  | .hbm, ⟨112, _⟩ => ⟨S16x127x32x32x32x1x1x1x1, .f32⟩
  | .hbm, ⟨113, _⟩ => ⟨S_, .f32⟩
  | .hbm, ⟨114, _⟩ => ⟨S16x127x32x32x32x1x1x1x1, .f32⟩
  | .hbm, ⟨115, _⟩ => ⟨S16x127x32x32x32x1x1x1x1, .f32⟩
  | .hbm, ⟨116, _⟩ => ⟨S16x127x32x32x32x1x1x1x1, .f32⟩
  | .hbm, ⟨117, _⟩ => ⟨S_, .f32⟩
  | .hbm, ⟨118, _⟩ => ⟨S16x127x32x32x32x1x1x1, .f32⟩
  | .hbm, ⟨119, _⟩ => ⟨S1x1x32x32x1x1, .f32⟩
  | .hbm, ⟨120, _⟩ => ⟨S16x128x32x32x1x1, .f32⟩
  | .hbm, ⟨121, _⟩ => ⟨S1x1x32x32x1x1, .f32⟩
  | .hbm, ⟨122, _⟩ => ⟨S16x128x32x32x1x1, .f32⟩
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_13 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  shapeCasts_S16x128x32_S16x128x32x1x1 : S16x128x32.ShapeCasts S16x128x32x1x1
  bcast_S16x128x32x1x1_S16x128x1x32x1x1x1_0_1_3_5_6 : S16x128x32x1x1.BroadcastsInDim S16x128x1x32x1x1x1 (![0, 1, 3, 5, 6] : Fin 5 → Fin S16x128x1x32x1x1x1.rank)
  bcast_S32x32x1x1_S1x1x32x32x1x1x1_2_3_4_6 : S32x32x1x1.BroadcastsInDim S1x1x32x32x1x1x1 (![2, 3, 4, 6] : Fin 4 → Fin S1x1x32x32x1x1x1.rank)
  bcast_S_S16x128x1x32x1x1x1 : S_.BroadcastsInDim S16x128x1x32x1x1x1 (![] : Fin 0 → Fin S16x128x1x32x1x1x1.rank)
  bcast_S_S1x1x32x32x1x1x1 : S_.BroadcastsInDim S1x1x32x32x1x1x1 (![] : Fin 0 → Fin S1x1x32x32x1x1x1.rank)
  bcast_S16x128x1x32x1x1x1_S16x128x32x32x1x1x1_0_1_2_3_4_5_6 : S16x128x1x32x1x1x1.BroadcastsInDim S16x128x32x32x1x1x1 (![0, 1, 2, 3, 4, 5, 6] : Fin 7 → Fin S16x128x32x32x1x1x1.rank)
  bcast_S1x1x32x32x1x1x1_S16x128x32x32x1x1x1_0_1_2_3_4_5_6 : S1x1x32x32x1x1x1.BroadcastsInDim S16x128x32x32x1x1x1 (![0, 1, 2, 3, 4, 5, 6] : Fin 7 → Fin S16x128x32x32x1x1x1.rank)
  bcast_S_S16x128x32x32x1x1x1 : S_.BroadcastsInDim S16x128x32x32x1x1x1 (![] : Fin 0 → Fin S16x128x32x32x1x1x1.rank)
  reducesTo_S16x128x32x32x1x1x1_S16x128x32x32x1x1_d6 : S16x128x32x32x1x1x1.ReducesTo [6] S16x128x32x32x1x1
  h_S_ : 0 < S_.numel
  slices_S16x128x32x32x1x1x1_S16x127x32x32x1x1x1_0_0_0_0_0_0_0 : S16x128x32x32x1x1x1.Slices ![0, 0, 0, 0, 0, 0, 0] S16x127x32x32x1x1x1
  bcast_S16x127x32x32x1x1x1_S16x127x32x32x1x1x1x1x1_0_1_2_3_5_6_8 : S16x127x32x32x1x1x1.BroadcastsInDim S16x127x32x32x1x1x1x1x1 (![0, 1, 2, 3, 5, 6, 8] : Fin 7 → Fin S16x127x32x32x1x1x1x1x1.rank)
  bcast_S32x32x1x1_S1x1x1x32x32x1x1x1x1_3_4_7_8 : S32x32x1x1.BroadcastsInDim S1x1x1x32x32x1x1x1x1 (![3, 4, 7, 8] : Fin 4 → Fin S1x1x1x32x32x1x1x1x1.rank)
  bcast_S_S16x127x32x32x1x1x1x1x1 : S_.BroadcastsInDim S16x127x32x32x1x1x1x1x1 (![] : Fin 0 → Fin S16x127x32x32x1x1x1x1x1.rank)
  bcast_S_S1x1x1x32x32x1x1x1x1 : S_.BroadcastsInDim S1x1x1x32x32x1x1x1x1 (![] : Fin 0 → Fin S1x1x1x32x32x1x1x1x1.rank)
  bcast_S16x127x32x32x1x1x1x1x1_S16x127x32x32x32x1x1x1x1_0_1_2_3_4_5_6_7_8 : S16x127x32x32x1x1x1x1x1.BroadcastsInDim S16x127x32x32x32x1x1x1x1 (![0, 1, 2, 3, 4, 5, 6, 7, 8] : Fin 9 → Fin S16x127x32x32x32x1x1x1x1.rank)
  bcast_S1x1x1x32x32x1x1x1x1_S16x127x32x32x32x1x1x1x1_0_1_2_3_4_5_6_7_8 : S1x1x1x32x32x1x1x1x1.BroadcastsInDim S16x127x32x32x32x1x1x1x1 (![0, 1, 2, 3, 4, 5, 6, 7, 8] : Fin 9 → Fin S16x127x32x32x32x1x1x1x1.rank)
  bcast_S_S16x127x32x32x32x1x1x1x1 : S_.BroadcastsInDim S16x127x32x32x32x1x1x1x1 (![] : Fin 0 → Fin S16x127x32x32x32x1x1x1x1.rank)
  reducesTo_S16x127x32x32x32x1x1x1x1_S16x127x32x32x32x1x1x1_d8 : S16x127x32x32x32x1x1x1x1.ReducesTo [8] S16x127x32x32x32x1x1x1
  bcast_S32x32x1x1_S1x1x32x32x1x1_2_3_4_5 : S32x32x1x1.BroadcastsInDim S1x1x32x32x1x1 (![2, 3, 4, 5] : Fin 4 → Fin S1x1x32x32x1x1.rank)
  bcast_S1x1x32x32x1x1_S16x128x32x32x1x1_0_1_2_3_4_5 : S1x1x32x32x1x1.BroadcastsInDim S16x128x32x32x1x1 (![0, 1, 2, 3, 4, 5] : Fin 6 → Fin S16x128x32x32x1x1.rank)
  gather_S50000x32_S16x128x1_S16x128x32_2_0_n_n_0_2_132_wf : GatherDims.WF S50000x32 S16x128x1 S16x128x32 [2] [0] [] [0] [] 2 ![1, 32]

variable [Facts₀]

def gather_S50000x32_S16x128x1_S16x128x32_2_0_n_n_0_2_132 : GatherDims S50000x32 S16x128x1 S16x128x32 where
  offsetDims := [2]
  collapsedSliceDims := [0]
  operandBatchingDims := []
  startIndicesBatchingDims := []
  startIndexMap := [0]
  indexVectorDim := 2
  sliceSizes := ![1, 32]
  wf := gather_S50000x32_S16x128x1_S16x128x32_2_0_n_n_0_2_132_wf

class Facts : Prop extends Facts₀ where

variable [Facts]
-- ==== Proof.GaussProduct.lean ====
/-
  The mathematics of this certificate, with no program in sight.

  A latent-variable CRF multiplies Gaussians written in the (mean, log-standard-deviation) parameterisation.  For two
  such Gaussians (m₁, v₁) and (m₂, v₂) put  S = e^{2·v₁} + e^{2·v₂}.  Their product has

      mean       (m₁ · e^{2·v₂} + m₂ · e^{2·v₁}) / S,
      log-std    (v₁ + v₂) − ½ · log S,
      log-scale  −½ · ((log 2π + log S) + (m₁ − m₂)² / S).

  Both programs evaluate exactly these three expressions, operation for operation and in this order, on the extended
  reals; so no algebraic law is needed to join them, only the bookkeeping of which entries of which arrays meet.

  Stage A multiplies the emission Gaussian of a token, looked up per (sentence b, position l) with one entry per
  label k, by the child-transition Gaussian of the label pair (a, k):
      cs[b, l, a, k] = product of (s_mu[b,l,k], s_var[b,l,k]) and (tc_mu[a,k], tc_var[a,k]).
  Stage B multiplies that, at every position but the last, by the parent-transition Gaussian of (k, c) and keeps
  the log-scale only:
      csp[b, t, a, k, c] = log-scale of (cs_mu[b,t,a,k], cs_var[b,t,a,k]) and (tp_mu[k,c], tp_var[k,c]).
-/
import Idealize.ShloMosaic.PureOps.Ideal
import Idealize.ShloMosaic.Lib.ValueIdx

noncomputable section

namespace Cert.GaussProduct

open Idealize.ShloMosaic Idealize.ShloMosaic.ValueIdx

/-- The literal 2 of `exp (2 · v)`, as the float word both programs print. -/
abbrev two : EReal := Ideal.ofBits .f32 0x40000000#32
/-- The literal ½. -/
abbrev half : EReal := Ideal.ofBits .f32 0x3F000000#32
/-- The literal −½. -/
abbrev negHalf : EReal := Ideal.ofBits .f32 0xBF000000#32
/-- log 2π rounded to a float: the same word in both programs, never evaluated. -/
abbrev log2pi : EReal := Ideal.ofBits .f32 0x3FEB3F8E#32

/-- S = e^{2·v₁} + e^{2·v₂}: the sum of the two variances. -/
def varSum (v1 v2 : EReal) : EReal := Ideal.exp (two * v1) + Ideal.exp (two * v2)

/-- The mean of the product of two Gaussians. -/
def prodMean (m1 v1 m2 v2 : EReal) : EReal :=
  Ideal.div (m1 * Ideal.exp (two * v2) + m2 * Ideal.exp (two * v1)) (varSum v1 v2)

/-- The log-standard-deviation of the product. -/
def prodLogStd (v1 v2 : EReal) : EReal := (v1 + v2) - half * Ideal.log (varSum v1 v2)

/-- The log-scale of the product. -/
def prodLogScale (m1 v1 m2 v2 : EReal) : EReal :=
  negHalf * ((log2pi + Ideal.log (varSum v1 v2)) + Ideal.div ((m1 - m2) * (m1 - m2)) (varSum v1 v2))

/-! ## The arrays -/

abbrev Emit := (⟨3, ![16, 128, 32]⟩ : Shape).Idx → EReal
abbrev Trans := (⟨4, ![32, 32, 1, 1]⟩ : Shape).Idx → EReal

/-- A transition table's entry for the label pair (p, q): its two trailing axes have one entry each. -/
abbrev tix (p q : Fin 32) : (⟨4, ![32, 32, 1, 1]⟩ : Shape).Idx := ix4 p q (0 : Fin 1) (0 : Fin 1)

/-- Stage A's mean at (b, l, a, k). -/
def csMean (smu svar : Emit) (tcmu tcvar : Trans) (b : Fin 16) (l : Fin 128) (a k : Fin 32) : EReal :=
  prodMean (smu (ix3 b l k)) (svar (ix3 b l k)) (tcmu (tix a k)) (tcvar (tix a k))

/-- Stage A's log-standard-deviation at (b, l, a, k). -/
def csLogStd (svar : Emit) (tcvar : Trans) (b : Fin 16) (l : Fin 128) (a k : Fin 32) : EReal :=
  prodLogStd (svar (ix3 b l k)) (tcvar (tix a k))

/-- A position other than the last, as a position. -/
abbrev pos (t : Fin 127) : Fin 128 := ⟨t.val, Nat.lt_succ_of_lt t.isLt⟩

/-- Stage B's log-scale at (b, t, a, k, c). -/
def cspLogScale (smu svar : Emit) (tcmu tcvar tpmu tpvar : Trans) (b : Fin 16) (t : Fin 127) (a k c : Fin 32) : EReal :=
  prodLogScale (csMean smu svar tcmu tcvar b (pos t) a k) (csLogStd svar tcvar b (pos t) a k) (tpmu (tix k c)) (tpvar (tix k c))

/-- The index of a stage-A result's entry (b, l, a, k): its three trailing axes have one entry each. -/
abbrev csIdx (b : Fin 16) (l : Fin 128) (a k : Fin 32) : (⟨7, ![16, 128, 32, 32, 1, 1, 1]⟩ : Shape).Idx :=
  fun g => match g with
    | ⟨0, _⟩ => b | ⟨1, _⟩ => l | ⟨2, _⟩ => a | ⟨3, _⟩ => k
    | ⟨4, _⟩ => (0 : Fin 1) | ⟨5, _⟩ => (0 : Fin 1) | ⟨6, _⟩ => (0 : Fin 1)

/-! ## The five results, each as one function of its index -/

def outScale (smu svar : Emit) (tcmu tcvar tpmu tpvar : Trans) :
    (⟨8, ![16, 127, 32, 32, 32, 1, 1, 1]⟩ : Shape).Idx → EReal :=
  fun i => cspLogScale smu svar tcmu tcvar tpmu tpvar (i 0) (i 1) (i 2) (i 3) (i 4)

def outMean (smu svar : Emit) (tcmu tcvar : Trans) : (⟨7, ![16, 128, 32, 32, 1, 1, 1]⟩ : Shape).Idx → EReal :=
  fun i => csMean smu svar tcmu tcvar (i 0) (i 1) (i 2) (i 3)

def outLogStd (svar : Emit) (tcvar : Trans) : (⟨7, ![16, 128, 32, 32, 1, 1, 1]⟩ : Shape).Idx → EReal :=
  fun i => csLogStd svar tcvar (i 0) (i 1) (i 2) (i 3)

/-- A parent-transition table repeated over every sentence and position. -/
def outTrans (tp : Trans) : (⟨6, ![16, 128, 32, 32, 1, 1]⟩ : Shape).Idx → EReal :=
  fun i => tp (tix (i 2) (i 3))

end Cert.GaussProduct

end
-- ==== Proof.StageA.lean ====
/-
  Stage A's region, read as values.

  The region runs once per sentence b (16 grid points).  At point b it is handed row b of the two gathered
  emission arrays, a [1, 128, 32] block each, and the whole [32, 32] child-transition tables, and writes row b of its two
  results, a [1, 128, 32, 32] block each.  Inside the body the emission row is repeated over the first label axis,
  the tables over the position axis, and every entry of the block is the product mean (resp. log-standard-deviation)
  of the two Gaussians that meet there: entry (0, l, a, k) is made of the emission entry (0, l, k) and the table entry
  (a, k).  Since the sixteen blocks tile the result arrays, each array after the region is one function of the
  arrays the region was entered with: entry (b, l, a, k) from emission entry (b, l, k) and table entry (a, k).
  All of this holds for whatever contents `V` the region is entered with.
-/
import proofs.«176982_j65566970741220_1_alg».proof.Proof.Gen.KernelIdeal.Frame
import proofs.«176982_j65566970741220_1_alg».proof.Proof.GaussProduct
import Idealize.ShloMosaic.Lib.Pipeline.Value
import Idealize.ShloMosaic.Lib.ValueIdx

set_option maxRecDepth 16384

noncomputable section

namespace Cert.KernelIdeal.StageA

open Cert.KernelIdeal Cert.KernelIdeal.Gen Cert.GaussProduct
open Idealize.ShloMosaic Idealize.ShloMosaic.TcCoe Idealize.ShloMosaic.ValueIdx Idealize.SL.Sem
open Idealize.ShloMosaic.Pipeline (Dat Cfg Window)

/-! ## The body's changes of layout, read at an entry -/

section Layout
variable {α : Type}

/-- A [1, 128, 32] block viewed as [128, 32]: entry (l, k) is entry (0, l, k). -/
theorem dropLead (v : S1x128x32.Idx → α) (l : Fin 128) (k : Fin 32) :
    shapeCast S128x32 v shapeCasts_S1x128x32_S128x32 (ix2 l k) = v (ix3 (0 : Fin 1) l k) :=
  shapeCast_apply v shapeCasts_S1x128x32_S128x32 (ix2 l k) (ix3 (0 : Fin 1) l k)
    (by rewrite [Shape.rowMajor_val_three, Shape.rowMajor_val_two]
        show (0 * 128 + l.val) * 32 + k.val = l.val * 32 + k.val; omega)

/-- A [128, 32, 32] value stored as a [1, 128, 32, 32] block: entry (0, l, a, k) is entry (l, a, k). -/
theorem addLead (v : S128x32x32.Idx → α) (l : Fin 128) (a k : Fin 32) :
    shapeCast S1x128x32x32 v shapeCasts_S128x32x32_S1x128x32x32 (ix4 (0 : Fin 1) l a k) = v (ix3 l a k) :=
  shapeCast_apply v shapeCasts_S128x32x32_S1x128x32x32 (ix4 (0 : Fin 1) l a k) (ix3 l a k)
    (by rewrite [Shape.rowMajor_val_three, Shape.rowMajor_val_four]
        show (l.val * 32 + a.val) * 32 + k.val = ((0 * 128 + l.val) * 32 + a.val) * 32 + k.val; omega)

/-- A per-position row [128, 32] repeated over the first label axis: entry (l, a, k) is entry (l, k). -/
theorem overFirstLabel (x : S128x32.Idx → α) (l : Fin 128) (a k : Fin 32) :
    broadcastTo S128x32x32 (shapeCast S128x1x32 x shapeCasts_S128x32_S128x1x32) broadcasts_S128x1x32_S128x32x32 (ix3 l a k)
      = x (ix2 l k) := by
  refine (broadcastTo_apply _ broadcasts_S128x1x32_S128x32x32 (ix3 l a k) (ix3 l (0 : Fin 1) k) (fun d => match d with
    | ⟨0, _⟩ => by show l.val = if (128 : Nat) = 1 then 0 else l.val; rw [if_neg (by decide)]
    | ⟨1, _⟩ => by show 0 = if (1 : Nat) = 1 then 0 else a.val; rw [if_pos rfl]
    | ⟨2, _⟩ => by show k.val = if (32 : Nat) = 1 then 0 else k.val; rw [if_neg (by decide)])).trans ?_
  exact shapeCast_apply x shapeCasts_S128x32_S128x1x32 (ix3 l (0 : Fin 1) k) (ix2 l k)
    (by rewrite [Shape.rowMajor_val_two, Shape.rowMajor_val_three]
        show l.val * 32 + k.val = (l.val * 1 + 0) * 32 + k.val; omega)

/-- A label-pair table [32, 32] repeated over the positions: entry (l, a, k) is entry (a, k). -/
theorem overPositions (x : S32x32.Idx → α) (l : Fin 128) (a k : Fin 32) :
    broadcastTo S128x32x32 (shapeCast S1x32x32 x shapeCasts_S32x32_S1x32x32) broadcasts_S1x32x32_S128x32x32 (ix3 l a k)
      = x (ix2 a k) := by
  refine (broadcastTo_apply _ broadcasts_S1x32x32_S128x32x32 (ix3 l a k) (ix3 (0 : Fin 1) a k) (fun d => match d with
    | ⟨0, _⟩ => by show 0 = if (1 : Nat) = 1 then 0 else l.val; rw [if_pos rfl]
    | ⟨1, _⟩ => by show a.val = if (32 : Nat) = 1 then 0 else a.val; rw [if_neg (by decide)]
    | ⟨2, _⟩ => by show k.val = if (32 : Nat) = 1 then 0 else k.val; rw [if_neg (by decide)])).trans ?_
  exact shapeCast_apply x shapeCasts_S32x32_S1x32x32 (ix3 (0 : Fin 1) a k) (ix2 a k)
    (by rewrite [Shape.rowMajor_val_two, Shape.rowMajor_val_three]
        show a.val * 32 + k.val = (0 * 32 + a.val) * 32 + k.val; omega)

end Layout

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- A block index with its leading coordinate, which can only be 0, written so. -/
theorem blockIdx (j : S1x128x32x32.Idx) : j = ix4 (0 : Fin 1) (j 1) (j 2) (j 3) := by
  funext d
  match d with
  | ⟨0, _⟩ => exact Fin.ext (by have h : (j 0).val < 1 := (j 0).isLt; show (j 0).val = 0; omega)
  | ⟨1, _⟩ => rfl
  | ⟨2, _⟩ => rfl
  | ⟨3, _⟩ => rfl

/-! ## The two payloads at an entry of the block -/

/-- The mean's payload: entry (0, l, a, k) is the product mean of the emission Gaussian at (0, l, k) and the
    child-transition Gaussian at (a, k). -/
theorem mean_payload (x0 x1 : Vec Ideal S1x128x32 .f32) (x2 x3 : Vec Ideal S32x32 .f32) (l : Fin 128) (a k : Fin 32) :
    k0_pay8 (F := Ideal) x0 x1 x2 x3 (ix4 (0 : Fin 1) l a k)
      = prodMean (x0 (ix3 (0 : Fin 1) l k)) (x1 (ix3 (0 : Fin 1) l k)) (x2 (ix2 a k)) (x3 (ix2 a k)) := by
  unfold k0_pay8 k0_pay6 k0_pay5 k0_pay4 k0_pay3 k0_pay2
  dsimp only
  rw [addLead]
  simp only [divf_apply, addf_apply, mulf_apply, exp_apply, broadcast_apply, overFirstLabel, overPositions, shapeCast_self, dropLead]
  rfl

/-- The log-standard-deviation's payload at (0, l, a, k). -/
theorem logStd_payload (x1 : Vec Ideal S1x128x32 .f32) (x3 : Vec Ideal S32x32 .f32) (l : Fin 128) (a k : Fin 32) :
    k0_pay1 (F := Ideal) (k0_pay7 x1 x3) (ix4 (0 : Fin 1) l a k)
      = prodLogStd (x1 (ix3 (0 : Fin 1) l k)) (x3 (ix2 a k)) := by
  unfold k0_pay1 k0_pay7 k0_pay6 k0_pay5 k0_pay4 k0_pay3 k0_pay2
  dsimp only
  rw [addLead]
  simp only [subf_apply, addf_apply, mulf_apply, exp_apply, log_apply, broadcast_apply, overFirstLabel, overPositions, shapeCast_self, dropLead]
  rfl

theorem mean_block (x0 x1 : Vec Ideal S1x128x32 .f32) (x2 x3 : Vec Ideal S32x32 .f32) (j : S1x128x32x32.Idx) :
    k0_pay8 (F := Ideal) x0 x1 x2 x3 j
      = prodMean (x0 (ix3 (0 : Fin 1) (j 1) (j 3))) (x1 (ix3 (0 : Fin 1) (j 1) (j 3))) (x2 (ix2 (j 2) (j 3))) (x3 (ix2 (j 2) (j 3))) :=
  (congrArg (k0_pay8 (F := Ideal) x0 x1 x2 x3) (blockIdx j)).trans (mean_payload x0 x1 x2 x3 (j 1) (j 2) (j 3))

theorem logStd_block (x1 : Vec Ideal S1x128x32 .f32) (x3 : Vec Ideal S32x32 .f32) (j : S1x128x32x32.Idx) :
    k0_pay1 (F := Ideal) (k0_pay7 x1 x3) j = prodLogStd (x1 (ix3 (0 : Fin 1) (j 1) (j 3))) (x3 (ix2 (j 2) (j 3))) :=
  (congrArg (k0_pay1 (F := Ideal) (k0_pay7 x1 x3)) (blockIdx j)).trans (logStd_payload x1 x3 (j 1) (j 2) (j 3))

/-! ## From blocks to arrays -/

variable (V : (c : Dev nD) → (b : Ref sig .tc) → Buf (Elt Ideal) ((c : Thread nD τ).loc b))

/-- The arrays the region is entered with, at their literal types. -/
abbrev emitMu (c : Dev nD) : S16x128x32.Idx → EReal := V c main_v10
abbrev emitLogStd (c : Dev nD) : S16x128x32.Idx → EReal := V c main_v17
abbrev childMu (c : Dev nD) : S32x32.Idx → EReal := V c main_v2
abbrev childLogStd (c : Dev nD) : S32x32.Idx → EReal := V c main_v3

/-- What the mean array holds after the region: entry (b, l, a, k) is the product mean of the emission Gaussian at
    (b, l, k) and the child-transition Gaussian at (a, k). -/
def meanArr (c : Dev nD) : S16x128x32x32.Idx → EReal := fun i =>
  prodMean (emitMu V c (ix3 (i 0) (i 1) (i 3))) (emitLogStd V c (ix3 (i 0) (i 1) (i 3)))
    (childMu V c (ix2 (i 2) (i 3))) (childLogStd V c (ix2 (i 2) (i 3)))

/-- What the log-standard-deviation array holds after the region. -/
def logStdArr (c : Dev nD) : S16x128x32x32.Idx → EReal := fun i =>
  prodLogStd (emitLogStd V c (ix3 (i 0) (i 1) (i 3))) (childLogStd V c (ix2 (i 2) (i 3)))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the sixteen points: the emission windows and both result windows sit at
    row `t` of their arrays, the tables at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- A grid point as a sentence number. -/
abbrev sent (t : Fin cfg0.N) : Fin 16 := ⟨t.val, Nat.lt_of_lt_of_eq t.isLt N_0⟩

/-! Each input block, read where the result block's entry lies: an emission block's entry (0, p, q) is the array's
    entry (t, p, q); a table is its own one block. -/

theorem emitMu_read (c : Dev nD) (t : Fin cfg0.N) (p : Fin 128) (q : Fin 32) :
    iblk0 V c 0 t (ix3 (0 : Fin 1) p q) = emitMu V c (ix3 (sent t) p q) := by
  obtain ⟨e0, e1, e2, -⟩ := idx_facts t
  show emitMu V c (((cfg0.win 0).blk t).view.emb (ix3 (0 : Fin 1) p q)) = emitMu V c (ix3 (sent t) p q)
  refine congrArg (emitMu V c) (funext fun a => Fin.ext ?_)
  match a with
  | ⟨0, _⟩ => show win0_0.index t (0 : Fin 3) * 1 + 1 * 0 = t.val; omega
  | ⟨1, _⟩ => show win0_0.index t (1 : Fin 3) * 128 + 1 * p.val = p.val; omega
  | ⟨2, _⟩ => show win0_0.index t (2 : Fin 3) * 32 + 1 * q.val = q.val; omega

theorem emitLogStd_read (c : Dev nD) (t : Fin cfg0.N) (p : Fin 128) (q : Fin 32) :
    iblk0 V c 1 t (ix3 (0 : Fin 1) p q) = emitLogStd V c (ix3 (sent t) p q) := by
  obtain ⟨-, -, -, e0, e1, e2, -⟩ := idx_facts t
  show emitLogStd V c (((cfg0.win 1).blk t).view.emb (ix3 (0 : Fin 1) p q)) = emitLogStd V c (ix3 (sent t) p q)
  refine congrArg (emitLogStd V c) (funext fun a => Fin.ext ?_)
  match a with
  | ⟨0, _⟩ => show win0_1.index t (0 : Fin 3) * 1 + 1 * 0 = t.val; omega
  | ⟨1, _⟩ => show win0_1.index t (1 : Fin 3) * 128 + 1 * p.val = p.val; omega
  | ⟨2, _⟩ => show win0_1.index t (2 : Fin 3) * 32 + 1 * q.val = q.val; omega

theorem childMu_read (c : Dev nD) (t : Fin cfg0.N) (a k : Fin 32) :
    iblk0 V c 2 t (ix2 a k) = childMu V c (ix2 a k) := by
  obtain ⟨-, -, -, -, -, -, e0, e1, -⟩ := idx_facts t
  show childMu V c (((cfg0.win 2).blk t).view.emb (ix2 a k)) = childMu V c (ix2 a k)
  refine congrArg (childMu V c) (funext fun d => Fin.ext ?_)
  match d with
  | ⟨0, _⟩ => show win0_2.index t (0 : Fin 2) * 32 + 1 * a.val = a.val; omega
  | ⟨1, _⟩ => show win0_2.index t (1 : Fin 2) * 32 + 1 * k.val = k.val; omega

theorem childLogStd_read (c : Dev nD) (t : Fin cfg0.N) (a k : Fin 32) :
    iblk0 V c 3 t (ix2 a k) = childLogStd V c (ix2 a k) := by
  obtain ⟨-, -, -, -, -, -, -, -, e0, e1, -⟩ := idx_facts t
  show childLogStd V c (((cfg0.win 3).blk t).view.emb (ix2 a k)) = childLogStd V c (ix2 a k)
  refine congrArg (childLogStd V c) (funext fun d => Fin.ext ?_)
  match d with
  | ⟨0, _⟩ => show win0_3.index t (0 : Fin 2) * 32 + 1 * a.val = a.val; omega
  | ⟨1, _⟩ => show win0_3.index t (1 : Fin 2) * 32 + 1 * k.val = k.val; omega

/-- Entry j of point `t`'s mean block is the array's entry (t, j₁, j₂, j₃). -/
theorem mean_emb (t : Fin cfg0.N) (j : S1x128x32x32.Idx) :
    ((cfg0.win 4).blk t).view.emb j = ix4 (sent t) (j 1) (j 2) (j 3) := by
  obtain ⟨-, -, -, -, -, -, -, -, -, -, e0, e1, e2, e3, -⟩ := idx_facts t
  have hj0 : (j 0).val < 1 := (j 0).isLt
  funext a; apply Fin.ext
  match a with
  | ⟨0, _⟩ => show win0_4.index t (0 : Fin 4) * 1 + 1 * (j 0).val = t.val; omega
  | ⟨1, _⟩ => show win0_4.index t (1 : Fin 4) * 128 + 1 * (j 1).val = (j 1).val; omega
  | ⟨2, _⟩ => show win0_4.index t (2 : Fin 4) * 32 + 1 * (j 2).val = (j 2).val; omega
  | ⟨3, _⟩ => show win0_4.index t (3 : Fin 4) * 32 + 1 * (j 3).val = (j 3).val; omega

/-- The same for the log-standard-deviation block. -/
theorem logStd_emb (t : Fin cfg0.N) (j : S1x128x32x32.Idx) :
    ((cfg0.win 5).blk t).view.emb j = ix4 (sent t) (j 1) (j 2) (j 3) := by
  obtain ⟨-, -, -, -, -, -, -, -, -, -, -, -, -, -, e0, e1, e2, e3⟩ := idx_facts t
  have hj0 : (j 0).val < 1 := (j 0).isLt
  funext a; apply Fin.ext
  match a with
  | ⟨0, _⟩ => show win0_5.index t (0 : Fin 4) * 1 + 1 * (j 0).val = t.val; omega
  | ⟨1, _⟩ => show win0_5.index t (1 : Fin 4) * 128 + 1 * (j 1).val = (j 1).val; omega
  | ⟨2, _⟩ => show win0_5.index t (2 : Fin 4) * 32 + 1 * (j 2).val = (j 2).val; omega
  | ⟨3, _⟩ => show win0_5.index t (3 : Fin 4) * 32 + 1 * (j 3).val = (j 3).val; omega

/-- What point `t` writes back to the mean array is block `t` of `meanArr`. -/
theorem mean_flushed (c : Dev nD) (t : Fin cfg0.N) :
    (dat0 V c).flushed 4 t = ((cfg0.win 4).blk t).view.read (Elt Ideal) (meanArr V c) := by
  show (cfg0.win 4).cut (grid0.coords t) ((dat0 V c).after 4 t) = _
  rw [after0_4]
  unfold out0_4
  rw [View.canon_unit_zero hz4]
  simp only [View.ld_unit_zero (S := S1x128x32) hz3, View.ld_unit_zero (S := S32x32) hz2]
  refine funext fun (j : S1x128x32x32.Idx) => ?_
  show k0_pay8 (F := Ideal) (iblk0 V c 0 t) (iblk0 V c 1 t) (iblk0 V c 2 t) (iblk0 V c 3 t) j
    = meanArr V c (((cfg0.win 4).blk t).view.emb j)
  rw [mean_emb]
  refine (mean_block (iblk0 V c 0 t) (iblk0 V c 1 t) (iblk0 V c 2 t) (iblk0 V c 3 t) j).trans ?_
  exact congr (congr (congr (congrArg prodMean (emitMu_read V c t (j 1) (j 3))) (emitLogStd_read V c t (j 1) (j 3)))
    (childMu_read V c t (j 2) (j 3))) (childLogStd_read V c t (j 2) (j 3))

/-- What point `t` writes back to the log-standard-deviation array is block `t` of `logStdArr`. -/
theorem logStd_flushed (c : Dev nD) (t : Fin cfg0.N) :
    (dat0 V c).flushed 5 t = ((cfg0.win 5).blk t).view.read (Elt Ideal) (logStdArr V c) := by
  show (cfg0.win 5).cut (grid0.coords t) ((dat0 V c).after 5 t) = _
  rw [after0_5]
  unfold out0_5
  rw [View.canon_unit_zero hz4]
  simp only [View.ld_unit_zero (S := S1x128x32) hz3, View.ld_unit_zero (S := S32x32) hz2]
  refine funext fun (j : S1x128x32x32.Idx) => ?_
  show k0_pay1 (F := Ideal) (k0_pay7 (iblk0 V c 1 t) (iblk0 V c 3 t)) j
    = logStdArr V c (((cfg0.win 5).blk t).view.emb j)
  rw [logStd_emb]
  refine (logStd_block (iblk0 V c 1 t) (iblk0 V c 3 t) j).trans ?_
  exact congr (congrArg prodLogStd (emitLogStd_read V c t (j 1) (j 3))) (childLogStd_read V c t (j 2) (j 3))

/-- An entry of the mean array is in point `t`'s block iff each coordinate is in the block's range on its axis. -/
theorem mem_blk4 (t : Fin cfg0.N) (i : S16x128x32x32.Idx) :
    i ∈ ((cfg0.win 4).blk t).view.set ↔ ∀ a : Fin 4, win0_4.index t a * S1x128x32x32.size a ≤ (i a).val
      ∧ (i a).val < win0_4.index t a * S1x128x32x32.size a + S1x128x32x32.size a := by
  show i ∈ ((View.whole main_v18_0).slice (win0_4.rect t)).set ↔ _
  rw [View.set_slice_whole, Rect.mem_set_unit]
  exact Iff.rfl

theorem mem_blk5 (t : Fin cfg0.N) (i : S16x128x32x32.Idx) :
    i ∈ ((cfg0.win 5).blk t).view.set ↔ ∀ a : Fin 4, win0_5.index t a * S1x128x32x32.size a ≤ (i a).val
      ∧ (i a).val < win0_5.index t a * S1x128x32x32.size a + S1x128x32x32.size a := by
  show i ∈ ((View.whole main_v18_1).slice (win0_5.rect t)).set ↔ _
  rw [View.set_slice_whole, Rect.mem_set_unit]
  exact Iff.rfl

/-- The sentence of an entry, as a grid point. -/
theorem point_of (i : S16x128x32x32.Idx) : ∃ t : Fin cfg0.N, t.val = (i 0).val :=
  ⟨⟨(i 0).val, Nat.lt_of_lt_of_eq (i 0).isLt N_0.symm⟩, rfl⟩

/-- The sixteen row blocks tile the mean array: entry i is in the block of point i₀. -/
theorem mean_cover (i : S16x128x32x32.Idx) :
    ∃ t : Fin cfg0.N, (cfg0.win 4).flush t = true ∧ i ∈ ((cfg0.win 4).blk t).view.set := by
  obtain ⟨t, ht⟩ := point_of i
  obtain ⟨-, -, -, -, -, -, -, -, -, -, e0, e1, e2, e3, -⟩ := idx_facts t
  have h1 : (i 1).val < 128 := (i 1).isLt
  have h2 : (i 2).val < 32 := (i 2).isLt
  have h3 : (i 3).val < 32 := (i 3).isLt
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 32 ≤ (i 2).val ∧ (i 2).val < win0_4.index t (2 : Fin 4) * 32 + 32; omega
  | ⟨3, _⟩ => show win0_4.index t (3 : Fin 4) * 32 ≤ (i 3).val ∧ (i 3).val < win0_4.index t (3 : Fin 4) * 32 + 32; omega

theorem logStd_cover (i : S16x128x32x32.Idx) :
    ∃ t : Fin cfg0.N, (cfg0.win 5).flush t = true ∧ i ∈ ((cfg0.win 5).blk t).view.set := by
  obtain ⟨t, ht⟩ := point_of i
  obtain ⟨-, -, -, -, -, -, -, -, -, -, -, -, -, -, e0, e1, e2, e3⟩ := idx_facts t
  have h1 : (i 1).val < 128 := (i 1).isLt
  have h2 : (i 2).val < 32 := (i 2).isLt
  have h3 : (i 3).val < 32 := (i 3).isLt
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 32 ≤ (i 2).val ∧ (i 2).val < win0_5.index t (2 : Fin 4) * 32 + 32; omega
  | ⟨3, _⟩ => show win0_5.index t (3 : Fin 4) * 32 ≤ (i 3).val ∧ (i 3).val < win0_5.index t (3 : Fin 4) * 32 + 32; omega

/-- THE MEAN ARRAY after the region, whatever the region is entered with. -/
theorem mean_final (c : Dev nD) : (dat0 V c).arrAt 4 cfg0.N = meanArr V c :=
  (dat0 V c).arrAt_eq_of_cover 4 (meanArr V c) (fun t _ => mean_flushed V c t) mean_cover

/-- THE LOG-STANDARD-DEVIATION ARRAY after the region. -/
theorem logStd_final (c : Dev nD) : (dat0 V c).arrAt 5 cfg0.N = logStdArr V c :=
  (dat0 V c).arrAt_eq_of_cover 5 (logStdArr V c) (fun t _ => logStd_flushed V c t) logStd_cover

end Cert.KernelIdeal.StageA

end
-- ==== Proof.StageB.lean ====
/-
  Stage B's region, read as values.

  The stage-A means and log-standard-deviations at every position but the last, laid out as 65024 = 16 · 127 · 32 rows
  (sentence, position, first label) of 32 entries (second label k), are cut into 64 blocks of 1016 rows.  At each
  block the region is handed the two [1016, 32] blocks and the whole [32, 32] parent-transition tables and writes the
  [1016, 32, 32] block of log-scales: a row's entry k is repeated over the new last axis c, the tables over the rows, and
  entry (r, k, c) is the log-scale of the product of the Gaussian at (r, k) with the parent-transition Gaussian at
  (k, c).  The 64 blocks tile the result, so after the region it is one function of the arrays the region was
  entered with, whatever those are.
-/
import proofs.«176982_j65566970741220_1_alg».proof.Proof.Gen.KernelIdeal.Frame
import proofs.«176982_j65566970741220_1_alg».proof.Proof.GaussProduct
import Idealize.ShloMosaic.Lib.Pipeline.Value
import Idealize.ShloMosaic.Lib.ValueIdx

set_option maxRecDepth 16384

noncomputable section

namespace Cert.KernelIdeal.StageB

open Cert.KernelIdeal Cert.KernelIdeal.Gen Cert.GaussProduct
open Idealize.ShloMosaic Idealize.ShloMosaic.TcCoe Idealize.ShloMosaic.ValueIdx Idealize.SL.Sem
open Idealize.ShloMosaic.Pipeline (Dat Cfg Window)

/-! ## The body's changes of layout, read at an entry -/

section Layout
variable {α : Type}

/-- A row's entries [1016, 32] repeated over a new last axis: entry (r, k, c) is entry (r, k). -/
theorem overLastLabel (x : S1016x32.Idx → α) (r : Fin 1016) (k c : Fin 32) :
    broadcastTo S1016x32x32 (shapeCast S1016x32x1 x shapeCasts_S1016x32_S1016x32x1) broadcasts_S1016x32x1_S1016x32x32 (ix3 r k c)
      = x (ix2 r k) := by
  refine (broadcastTo_apply _ broadcasts_S1016x32x1_S1016x32x32 (ix3 r k c) (ix3 r k (0 : Fin 1)) (fun d => match d with
    | ⟨0, _⟩ => by show r.val = if (1016 : Nat) = 1 then 0 else r.val; rw [if_neg (by decide)]
    | ⟨1, _⟩ => by show k.val = if (32 : Nat) = 1 then 0 else k.val; rw [if_neg (by decide)]
    | ⟨2, _⟩ => by show 0 = if (1 : Nat) = 1 then 0 else c.val; rw [if_pos rfl])).trans ?_
  exact shapeCast_apply x shapeCasts_S1016x32_S1016x32x1 (ix3 r k (0 : Fin 1)) (ix2 r k)
    (by rewrite [Shape.rowMajor_val_two, Shape.rowMajor_val_three]
        show r.val * 32 + k.val = (r.val * 32 + k.val) * 1 + 0; omega)

/-- A label-pair table [32, 32] repeated over the rows: entry (r, k, c) is entry (k, c). -/
theorem overRows (x : S32x32.Idx → α) (r : Fin 1016) (k c : Fin 32) :
    broadcastTo S1016x32x32 (shapeCast S1x32x32 x shapeCasts_S32x32_S1x32x32) broadcasts_S1x32x32_S1016x32x32 (ix3 r k c)
      = x (ix2 k c) := by
  refine (broadcastTo_apply _ broadcasts_S1x32x32_S1016x32x32 (ix3 r k c) (ix3 (0 : Fin 1) k c) (fun d => match d with
    | ⟨0, _⟩ => by show 0 = if (1 : Nat) = 1 then 0 else r.val; rw [if_pos rfl]
    | ⟨1, _⟩ => by show k.val = if (32 : Nat) = 1 then 0 else k.val; rw [if_neg (by decide)]
    | ⟨2, _⟩ => by show c.val = if (32 : Nat) = 1 then 0 else c.val; rw [if_neg (by decide)])).trans ?_
  exact shapeCast_apply x shapeCasts_S32x32_S1x32x32 (ix3 (0 : Fin 1) k c) (ix2 k c)
    (by rewrite [Shape.rowMajor_val_two, Shape.rowMajor_val_three]
        show k.val * 32 + c.val = (0 * 32 + k.val) * 32 + c.val; omega)

end Layout

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The payload at an entry of the block -/

/-- Entry (r, k, c) of the block is the log-scale of the product of the Gaussian at (r, k) and the parent-transition
    Gaussian at (k, c). -/
theorem scale_payload (x0 x1 : Vec Ideal S1016x32 .f32) (x2 x3 : Vec Ideal S32x32 .f32) (r : Fin 1016) (k c : Fin 32) :
    k1_pay1 (F := Ideal) x0 x1 x2 x3 (ix3 r k c)
      = prodLogScale (x0 (ix2 r k)) (x1 (ix2 r k)) (x2 (ix2 k c)) (x3 (ix2 k c)) := by
  unfold k1_pay1
  simp only [divf_apply, addf_apply, subf_apply, mulf_apply, exp_apply, log_apply, broadcast_apply, overLastLabel, overRows, shapeCast_self]
  rfl

theorem scale_block (x0 x1 : Vec Ideal S1016x32 .f32) (x2 x3 : Vec Ideal S32x32 .f32) (j : S1016x32x32.Idx) :
    k1_pay1 (F := Ideal) x0 x1 x2 x3 j
      = prodLogScale (x0 (ix2 (j 0) (j 1))) (x1 (ix2 (j 0) (j 1))) (x2 (ix2 (j 1) (j 2))) (x3 (ix2 (j 1) (j 2))) :=
  (congrArg (k1_pay1 (F := Ideal) x0 x1 x2 x3) (eq_ix3 j)).trans (scale_payload x0 x1 x2 x3 (j 0) (j 1) (j 2))

/-! ## From blocks to the array -/

variable (V : (c : Dev nD) → (b : Ref sig .tc) → Buf (Elt Ideal) ((c : Thread nD τ).loc b))

/-- The arrays the region is entered with, at their literal types. -/
abbrev rowMu (c : Dev nD) : S65024x32.Idx → EReal := V c main_v21
abbrev rowLogStd (c : Dev nD) : S65024x32.Idx → EReal := V c main_v22
abbrev parentMu (c : Dev nD) : S32x32.Idx → EReal := V c main_v0
abbrev parentLogStd (c : Dev nD) : S32x32.Idx → EReal := V c main_v1

/-- What the result holds after the region: entry (r, k, c) is the log-scale of the product of the Gaussian at row r,
    entry k, and the parent-transition Gaussian at (k, c). -/
def scaleArr (c : Dev nD) : S65024x32x32.Idx → EReal := fun i =>
  prodLogScale (rowMu V c (ix2 (i 0) (i 1))) (rowLogStd V c (ix2 (i 0) (i 1)))
    (parentMu V c (ix2 (i 1) (i 2))) (parentLogStd V c (ix2 (i 1) (i 2)))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 points: the row windows and the result window sit at block `t` of
    their arrays, the tables at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Row p of block t, as a row of the array. -/
abbrev row (t : Fin cfg1.N) (p : Fin 1016) : Fin 65024 :=
  ⟨t.val * 1016 + p.val, by have h : t.val < 64 := Nat.lt_of_lt_of_eq t.isLt N_1; have := p.isLt; omega⟩

theorem rowMu_read (c : Dev nD) (t : Fin cfg1.N) (p : Fin 1016) (q : Fin 32) :
    iblk1 V c 0 t (ix2 p q) = rowMu V c (ix2 (row t p) q) := by
  obtain ⟨e0, e1, -⟩ := idx_facts t
  show rowMu V c (((cfg1.win 0).blk t).view.emb (ix2 p q)) = rowMu V c (ix2 (row t p) q)
  refine congrArg (rowMu V c) (funext fun a => Fin.ext ?_)
  match a with
  | ⟨0, _⟩ => show win1_0.index t (0 : Fin 2) * 1016 + 1 * p.val = t.val * 1016 + p.val; omega
  | ⟨1, _⟩ => show win1_0.index t (1 : Fin 2) * 32 + 1 * q.val = q.val; omega

theorem rowLogStd_read (c : Dev nD) (t : Fin cfg1.N) (p : Fin 1016) (q : Fin 32) :
    iblk1 V c 1 t (ix2 p q) = rowLogStd V c (ix2 (row t p) q) := by
  obtain ⟨-, -, e0, e1, -⟩ := idx_facts t
  show rowLogStd V c (((cfg1.win 1).blk t).view.emb (ix2 p q)) = rowLogStd V c (ix2 (row t p) q)
  refine congrArg (rowLogStd V c) (funext fun a => Fin.ext ?_)
  match a with
  | ⟨0, _⟩ => show win1_1.index t (0 : Fin 2) * 1016 + 1 * p.val = t.val * 1016 + p.val; omega
  | ⟨1, _⟩ => show win1_1.index t (1 : Fin 2) * 32 + 1 * q.val = q.val; omega

theorem parentMu_read (c : Dev nD) (t : Fin cfg1.N) (k d : Fin 32) :
    iblk1 V c 2 t (ix2 k d) = parentMu V c (ix2 k d) := by
  obtain ⟨-, -, -, -, e0, e1, -⟩ := idx_facts t
  show parentMu V c (((cfg1.win 2).blk t).view.emb (ix2 k d)) = parentMu V c (ix2 k d)
  refine congrArg (parentMu V c) (funext fun a => Fin.ext ?_)
  match a with
  | ⟨0, _⟩ => show win1_2.index t (0 : Fin 2) * 32 + 1 * k.val = k.val; omega
  | ⟨1, _⟩ => show win1_2.index t (1 : Fin 2) * 32 + 1 * d.val = d.val; omega

theorem parentLogStd_read (c : Dev nD) (t : Fin cfg1.N) (k d : Fin 32) :
    iblk1 V c 3 t (ix2 k d) = parentLogStd V c (ix2 k d) := by
  obtain ⟨-, -, -, -, -, -, e0, e1, -⟩ := idx_facts t
  show parentLogStd V c (((cfg1.win 3).blk t).view.emb (ix2 k d)) = parentLogStd V c (ix2 k d)
  refine congrArg (parentLogStd V c) (funext fun a => Fin.ext ?_)
  match a with
  | ⟨0, _⟩ => show win1_3.index t (0 : Fin 2) * 32 + 1 * k.val = k.val; omega
  | ⟨1, _⟩ => show win1_3.index t (1 : Fin 2) * 32 + 1 * d.val = d.val; omega

/-- Entry j of point `t`'s result block is the array's entry (row t j₀, j₁, j₂). -/
theorem scale_emb (t : Fin cfg1.N) (j : S1016x32x32.Idx) :
    ((cfg1.win 4).blk t).view.emb j = ix3 (row t (j 0)) (j 1) (j 2) := by
  obtain ⟨-, -, -, -, -, -, -, -, e0, e1, e2⟩ := idx_facts t
  funext a; apply Fin.ext
  match a with
  | ⟨0, _⟩ => show win1_4.index t (0 : Fin 3) * 1016 + 1 * (j 0).val = t.val * 1016 + (j 0).val; omega
  | ⟨1, _⟩ => show win1_4.index t (1 : Fin 3) * 32 + 1 * (j 1).val = (j 1).val; omega
  | ⟨2, _⟩ => show win1_4.index t (2 : Fin 3) * 32 + 1 * (j 2).val = (j 2).val; omega

/-- What point `t` writes back is block `t` of `scaleArr`. -/
theorem scale_flushed (c : Dev nD) (t : Fin cfg1.N) :
    (dat1 V c).flushed 4 t = ((cfg1.win 4).blk t).view.read (Elt Ideal) (scaleArr V c) := by
  show (cfg1.win 4).cut (grid1.coords t) ((dat1 V c).after 4 t) = _
  rw [after1_4]
  unfold out1_4
  rw [View.canon_unit_zero hz3]
  simp only [View.ld_unit_zero (S := S1016x32) hz2, View.ld_unit_zero (S := S32x32) hz2]
  refine funext fun (j : S1016x32x32.Idx) => ?_
  show k1_pay1 (F := Ideal) (iblk1 V c 0 t) (iblk1 V c 1 t) (iblk1 V c 2 t) (iblk1 V c 3 t) j
    = scaleArr V c (((cfg1.win 4).blk t).view.emb j)
  rw [scale_emb]
  refine (scale_block (iblk1 V c 0 t) (iblk1 V c 1 t) (iblk1 V c 2 t) (iblk1 V c 3 t) j).trans ?_
  exact congr (congr (congr (congrArg prodLogScale (rowMu_read V c t (j 0) (j 1))) (rowLogStd_read V c t (j 0) (j 1)))
    (parentMu_read V c t (j 1) (j 2))) (parentLogStd_read V c t (j 1) (j 2))

/-- An entry of the result is in point `t`'s block iff each coordinate is in the block's range on its axis. -/
theorem mem_blk (t : Fin cfg1.N) (i : S65024x32x32.Idx) :
    i ∈ ((cfg1.win 4).blk t).view.set ↔ ∀ a : Fin 3, win1_4.index t a * S1016x32x32.size a ≤ (i a).val
      ∧ (i a).val < win1_4.index t a * S1016x32x32.size a + S1016x32x32.size a := by
  show i ∈ ((View.whole main_v23).slice (win1_4.rect t)).set ↔ _
  rw [View.set_slice_whole, Rect.mem_set_unit]
  exact Iff.rfl

/-- The 64 blocks of 1016 rows tile the result: entry i is in the block of point i₀ / 1016. -/
theorem scale_cover (i : S65024x32x32.Idx) :
    ∃ t : Fin cfg1.N, (cfg1.win 4).flush t = true ∧ i ∈ ((cfg1.win 4).blk t).view.set := by
  have h0 : (i 0).val < 65024 := (i 0).isLt
  have h1 : (i 1).val < 32 := (i 1).isLt
  have h2 : (i 2).val < 32 := (i 2).isLt
  obtain ⟨t, ht⟩ : ∃ t : Fin cfg1.N, t.val = (i 0).val / 1016 :=
    ⟨⟨(i 0).val / 1016, Nat.lt_of_lt_of_eq (show (i 0).val / 1016 < 64 by omega) N_1.symm⟩, rfl⟩
  obtain ⟨-, -, -, -, -, -, -, -, e0, e1, e2⟩ := idx_facts t
  refine ⟨t, flush1_4 t, ?_⟩
  rw [mem_blk]
  intro a
  match a with
  | ⟨0, _⟩ => show win1_4.index t (0 : Fin 3) * 1016 ≤ (i 0).val ∧ (i 0).val < win1_4.index t (0 : Fin 3) * 1016 + 1016; omega
  | ⟨1, _⟩ => show win1_4.index t (1 : Fin 3) * 32 ≤ (i 1).val ∧ (i 1).val < win1_4.index t (1 : Fin 3) * 32 + 32; omega
  | ⟨2, _⟩ => show win1_4.index t (2 : Fin 3) * 32 ≤ (i 2).val ∧ (i 2).val < win1_4.index t (2 : Fin 3) * 32 + 32; omega

/-- THE LOG-SCALE ARRAY after the region, whatever the region is entered with. -/
theorem scale_final (c : Dev nD) : (dat1 V c).arrAt 4 cfg1.N = scaleArr V c :=
  (dat1 V c).arrAt_eq_of_cover 4 (scaleArr V c) (fun t _ => scale_flushed V c t) scale_cover

end Cert.KernelIdeal.StageB

end
-- ==== Proof.LibRowMajor78.lean ====
/-
  Row-major positions of rank-7 and rank-8 indices as one sum of products, and indices of those ranks built from
  their coordinates: the library spells these for ranks one to six; a result with trailing unit axes needs two more.
-/
import Idealize.ShloMosaic.Lib.ValueIdx

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
        + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Idealize.ShloMosaic
-- ==== Proof.HostGlue.lean ====
/-
  Around and between the two regions: what the host operations make of the arguments and of the regions' results.

  Before stage A the program drops the two trailing unit axes of the four transition tables and looks the emission
  rows up per token.  Between the stages it drops the last position of stage A's two results and lays what is left out
  as 65024 rows.  After stage B it gives the three results their trailing unit axes back and repeats the two
  parent-transition tables over every sentence and position.  None of this computes anything: each result entry is one
  entry of one array, and this module says which.
-/
import proofs.«176982_j65566970741220_1_alg».proof.Proof.Gen.KernelIdeal.Frame
import proofs.«176982_j65566970741220_1_alg».proof.Proof.GaussProduct
import proofs.«176982_j65566970741220_1_alg».proof.Proof.StageA
import proofs.«176982_j65566970741220_1_alg».proof.Proof.StageB
import proofs.«176982_j65566970741220_1_alg».proof.Proof.LibRowMajor78
import Idealize.ShloMosaic.Lib.StableHlo.Run
import Idealize.ShloMosaic.Lib.Pipeline.Value
import Idealize.ShloMosaic.Lib.ValueIdx
import Idealize.ShloMosaic.Lib.ValueIdxRank6

set_option maxRecDepth 16384

noncomputable section

namespace Cert.KernelIdeal.Glue

open Cert.KernelIdeal Cert.KernelIdeal.Gen Cert.GaussProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Rows of a [50000, 32] table looked up per token, a negative token counted from the table's end. -/
def lookup (tbl : S50000x32.Idx → EReal) (tok : S16x128.Idx → BitVec 32) : S16x128x32.Idx → EReal :=
  Host.gather gather_S50000x32_S16x128x1_S16x128x32_2_0_n_n_0_2_132 tbl
    (broadcastInDim S16x128x1 ![0, 1] bcast_S16x128_S16x128x1_0_1
      (select (cmpi .slt tok (broadcastInDim S16x128 ![] bcast_S_S16x128 (constantI S_ 32 0#32)))
        (addi tok (broadcastInDim S16x128 ![] bcast_S_S16x128 (constantI S_ 32 50000#32))) tok))

/-! ## Before stage A -/

theorem entry_emitMu (c : Dev nD) :
    W1 m ρ c (Proc.devRef .tc main_v10) = lookup (m ((c : Thread nD τ).loc main_arg5)) (m ((c : Thread nD τ).loc main_arg0)) := by
  show StableHlo.after hostOps0 (W0 m ρ c) (Proc.devRef .tc main_v10) = _
  after_results
  rfl

theorem entry_emitLogStd (c : Dev nD) :
    W1 m ρ c (Proc.devRef .tc main_v17) = lookup (m ((c : Thread nD τ).loc main_arg6)) (m ((c : Thread nD τ).loc main_arg0)) := by
  show StableHlo.after hostOps0 (W0 m ρ c) (Proc.devRef .tc main_v17) = _
  after_results
  rfl

theorem entry_parentMu (c : Dev nD) :
    W1 m ρ c (Proc.devRef .tc main_v0) = shapeCast S32x32 (m ((c : Thread nD τ).loc main_arg1)) shapeCasts_S32x32x1x1_S32x32 := by
  show StableHlo.after hostOps0 (W0 m ρ c) (Proc.devRef .tc main_v0) = _
  after_results
  rfl

theorem entry_parentLogStd (c : Dev nD) :
    W1 m ρ c (Proc.devRef .tc main_v1) = shapeCast S32x32 (m ((c : Thread nD τ).loc main_arg2)) shapeCasts_S32x32x1x1_S32x32 := by
  show StableHlo.after hostOps0 (W0 m ρ c) (Proc.devRef .tc main_v1) = _
  after_results
  rfl

theorem entry_childMu (c : Dev nD) :
    W1 m ρ c (Proc.devRef .tc main_v2) = shapeCast S32x32 (m ((c : Thread nD τ).loc main_arg3)) shapeCasts_S32x32x1x1_S32x32 := by
  show StableHlo.after hostOps0 (W0 m ρ c) (Proc.devRef .tc main_v2) = _
  after_results
  rfl

theorem entry_childLogStd (c : Dev nD) :
    W1 m ρ c (Proc.devRef .tc main_v3) = shapeCast S32x32 (m ((c : Thread nD τ).loc main_arg4)) shapeCasts_S32x32x1x1_S32x32 := by
  show StableHlo.after hostOps0 (W0 m ρ c) (Proc.devRef .tc main_v3) = _
  after_results
  rfl

/-! ## After stage A, between the stages -/

theorem mid_mean (c : Dev nD) : W2 m ρ c (Proc.devRef .tc main_v18_0) = StageA.meanArr (V1 m ρ) c :=
  (W2_arr m ρ c 4).trans (StageA.mean_final (V1 m ρ) c)

theorem mid_logStd (c : Dev nD) : W2 m ρ c (Proc.devRef .tc main_v18_1) = StageA.logStdArr (V1 m ρ) c :=
  (W2_arr m ρ c 5).trans (StageA.logStd_final (V1 m ρ) c)

theorem rows_mean (c : Dev nD) :
    W3 m ρ c (Proc.devRef .tc main_v21)
      = shapeCast S65024x32 (extractStridedSlice S16x127x32x32 ![0, 0, 0, 0] (W2 m ρ c (Proc.devRef .tc main_v18_0)) slices_S16x128x32x32_S16x127x32x32_0_0_0_0)
          shapeCasts_S16x127x32x32_S65024x32 := by
  show StableHlo.after hostOps1 (W2 m ρ c) (Proc.devRef .tc main_v21) = _
  after_results
  rfl

theorem rows_logStd (c : Dev nD) :
    W3 m ρ c (Proc.devRef .tc main_v22)
      = shapeCast S65024x32 (extractStridedSlice S16x127x32x32 ![0, 0, 0, 0] (W2 m ρ c (Proc.devRef .tc main_v18_1)) slices_S16x128x32x32_S16x127x32x32_0_0_0_0)
          shapeCasts_S16x127x32x32_S65024x32 := by
  show StableHlo.after hostOps1 (W2 m ρ c) (Proc.devRef .tc main_v22) = _
  after_results
  rfl

/-- A buffer neither stage A nor the operations after it write is as it was before stage A. -/
theorem mid_parentMu (c : Dev nD) : W3 m ρ c (Proc.devRef .tc main_v0) = W1 m ρ c (Proc.devRef .tc main_v0) := by
  refine Eq.trans ?_ (W2_of_ne m ρ c main_v0 (by decide))
  show StableHlo.after hostOps1 (W2 m ρ c) (Proc.devRef .tc main_v0) = _
  after_results

theorem mid_parentLogStd (c : Dev nD) : W3 m ρ c (Proc.devRef .tc main_v1) = W1 m ρ c (Proc.devRef .tc main_v1) := by
  refine Eq.trans ?_ (W2_of_ne m ρ c main_v1 (by decide))
  show StableHlo.after hostOps1 (W2 m ρ c) (Proc.devRef .tc main_v1) = _
  after_results

/-! ## After stage B -/

theorem out_scale (c : Dev nD) :
    W5 m ρ c (Proc.devRef .tc main_v24)
      = shapeCast S16x127x32x32x32x1x1x1 (StageB.scaleArr (V3 m ρ) c) shapeCasts_S65024x32x32_S16x127x32x32x32x1x1x1 := by
  rw [← StageB.scale_final (V3 m ρ) c, ← W4_arr m ρ c 4]
  show StableHlo.after hostOps2 (W4 m ρ c) (Proc.devRef .tc main_v24) = _
  after_results
  rfl

theorem late_mean (c : Dev nD) : W4 m ρ c (Proc.devRef .tc main_v18_0) = StageA.meanArr (V1 m ρ) c := by
  refine (W4_of_ne m ρ c main_v18_0 (by decide)).trans (Eq.trans ?_ (mid_mean m ρ c))
  show StableHlo.after hostOps1 (W2 m ρ c) (Proc.devRef .tc main_v18_0) = _
  after_results

theorem late_logStd (c : Dev nD) : W4 m ρ c (Proc.devRef .tc main_v18_1) = StageA.logStdArr (V1 m ρ) c := by
  refine (W4_of_ne m ρ c main_v18_1 (by decide)).trans (Eq.trans ?_ (mid_logStd m ρ c))
  show StableHlo.after hostOps1 (W2 m ρ c) (Proc.devRef .tc main_v18_1) = _
  after_results

theorem out_mean (c : Dev nD) :
    W5 m ρ c (Proc.devRef .tc main_v25)
      = shapeCast S16x128x32x32x1x1x1 (StageA.meanArr (V1 m ρ) c) shapeCasts_S16x128x32x32_S16x128x32x32x1x1x1 := by
  rw [← late_mean m ρ c]
  show StableHlo.after hostOps2 (W4 m ρ c) (Proc.devRef .tc main_v25) = _
  after_results
  rfl

theorem out_logStd (c : Dev nD) :
    W5 m ρ c (Proc.devRef .tc main_v26)
      = shapeCast S16x128x32x32x1x1x1 (StageA.logStdArr (V1 m ρ) c) shapeCasts_S16x128x32x32_S16x128x32x32x1x1x1 := by
  rw [← late_logStd m ρ c]
  show StableHlo.after hostOps2 (W4 m ρ c) (Proc.devRef .tc main_v26) = _
  after_results
  rfl

/-- The parent-transition tables are stage B's own inputs: an input's array is never written back, so after the
    stage it is as the stage found it. -/
theorem late_parentMu (c : Dev nD) : W4 m ρ c (Proc.devRef .tc main_v0) = W1 m ρ c (Proc.devRef .tc main_v0) :=
  (W4_arr m ρ c 2).trans (((dat1 (V3 m ρ) c).arrAt_in 2 rfl cfg1.N).trans ((A_eq1 (V3 m ρ) c 2).trans (mid_parentMu m ρ c)))

theorem late_parentLogStd (c : Dev nD) : W4 m ρ c (Proc.devRef .tc main_v1) = W1 m ρ c (Proc.devRef .tc main_v1) :=
  (W4_arr m ρ c 3).trans (((dat1 (V3 m ρ) c).arrAt_in 3 rfl cfg1.N).trans ((A_eq1 (V3 m ρ) c 3).trans (mid_parentLogStd m ρ c)))

theorem out_parentMu (c : Dev nD) :
    W5 m ρ c (Proc.devRef .tc main_v28)
      = broadcastInDim S16x128x32x32x1x1 ![0, 1, 2, 3, 4, 5] bcast_S1x1x32x32x1x1_S16x128x32x32x1x1_0_1_2_3_4_5
          (shapeCast S1x1x32x32x1x1 (W1 m ρ c (Proc.devRef .tc main_v0)) shapeCasts_S32x32_S1x1x32x32x1x1) := by
  rw [← late_parentMu m ρ c]
  show StableHlo.after hostOps2 (W4 m ρ c) (Proc.devRef .tc main_v28) = _
  after_results
  rfl

theorem out_parentLogStd (c : Dev nD) :
    W5 m ρ c (Proc.devRef .tc main_v30)
      = broadcastInDim S16x128x32x32x1x1 ![0, 1, 2, 3, 4, 5] bcast_S1x1x32x32x1x1_S16x128x32x32x1x1_0_1_2_3_4_5
          (shapeCast S1x1x32x32x1x1 (W1 m ρ c (Proc.devRef .tc main_v1)) shapeCasts_S32x32_S1x1x32x32x1x1) := by
  rw [← late_parentLogStd m ρ c]
  show StableHlo.after hostOps2 (W4 m ρ c) (Proc.devRef .tc main_v30) = _
  after_results
  rfl

/-! ## Each result entry, traced back to the arguments -/

section Layout
variable {α : Type}

/-- A [32, 32, 1, 1] table viewed as [32, 32]: entry (p, q) is entry (p, q, 0, 0). -/
theorem squeezeTable (x : S32x32x1x1.Idx → α) (p q : Fin 32) :
    shapeCast S32x32 x shapeCasts_S32x32x1x1_S32x32 (ix2 p q) = x (tix p q) :=
  shapeCast_apply x shapeCasts_S32x32x1x1_S32x32 (ix2 p q) (tix p q)
    (by rewrite [Shape.rowMajor_val_four, Shape.rowMajor_val_two]
        show ((p.val * 32 + q.val) * 1 + 0) * 1 + 0 = p.val * 32 + q.val; omega)

/-- Row (b, t, a) of the 65024 = 16 · 127 · 32 rows. -/
abbrev rowOf (b : Fin 16) (t : Fin 127) (a : Fin 32) : Fin 65024 :=
  ⟨(b.val * 127 + t.val) * 32 + a.val, by have := b.isLt; have := t.isLt; have := a.isLt; omega⟩

/-- All positions but the last, laid out as rows: row (b, t, a), entry k, is entry (b, t, a, k). -/
theorem rows_apply (x : S16x128x32x32.Idx → α) (b : Fin 16) (t : Fin 127) (a k : Fin 32) :
    shapeCast S65024x32 (extractStridedSlice S16x127x32x32 ![0, 0, 0, 0] x slices_S16x128x32x32_S16x127x32x32_0_0_0_0)
        shapeCasts_S16x127x32x32_S65024x32 (ix2 (rowOf b t a) k)
      = x (ix4 b (pos t) a k) := by
  refine (shapeCast_apply _ shapeCasts_S16x127x32x32_S65024x32 (ix2 (rowOf b t a) k) (ix4 b t a k)
    (by rewrite [Shape.rowMajor_val_four, Shape.rowMajor_val_two]
        show ((b.val * 127 + t.val) * 32 + a.val) * 32 + k.val = ((b.val * 127 + t.val) * 32 + a.val) * 32 + k.val; rfl)).trans ?_
  exact extractStridedSlice_apply ![0, 0, 0, 0] x slices_S16x128x32x32_S16x127x32x32_0_0_0_0 (ix4 b t a k) (ix4 b (pos t) a k)
    (fun d => match d with
      | ⟨0, _⟩ => by show b.val = 0 + b.val; omega
      | ⟨1, _⟩ => by show t.val = 0 + t.val; omega
      | ⟨2, _⟩ => by show a.val = 0 + a.val; omega
      | ⟨3, _⟩ => by show k.val = 0 + k.val; omega)

end Layout

/-- The emission arrays and tables the program works from, as functions of the arguments. -/
abbrev emitMuOf (c : Dev nD) : Emit := lookup (m ((c : Thread nD τ).loc main_arg5)) (m ((c : Thread nD τ).loc main_arg0))
abbrev emitLogStdOf (c : Dev nD) : Emit := lookup (m ((c : Thread nD τ).loc main_arg6)) (m ((c : Thread nD τ).loc main_arg0))
abbrev parentMuOf (c : Dev nD) : Trans := m ((c : Thread nD τ).loc main_arg1)
abbrev parentLogStdOf (c : Dev nD) : Trans := m ((c : Thread nD τ).loc main_arg2)
abbrev childMuOf (c : Dev nD) : Trans := m ((c : Thread nD τ).loc main_arg3)
abbrev childLogStdOf (c : Dev nD) : Trans := m ((c : Thread nD τ).loc main_arg4)

/-- Stage A's mean array, entry (b, l, a, k), in terms of the arguments. -/
theorem meanArr_apply (c : Dev nD) (b : Fin 16) (l : Fin 128) (a k : Fin 32) :
    StageA.meanArr (V1 m ρ) c (ix4 b l a k)
      = csMean (emitMuOf m c) (emitLogStdOf m c) (childMuOf m c) (childLogStdOf m c) b l a k := by
  show prodMean (W1 m ρ c (Proc.devRef .tc main_v10) (ix3 b l k)) (W1 m ρ c (Proc.devRef .tc main_v17) (ix3 b l k))
      (W1 m ρ c (Proc.devRef .tc main_v2) (ix2 a k)) (W1 m ρ c (Proc.devRef .tc main_v3) (ix2 a k)) = _
  rw [entry_emitMu, entry_emitLogStd, entry_childMu, entry_childLogStd, squeezeTable, squeezeTable]
  rfl

/-- Stage A's log-standard-deviation array, entry (b, l, a, k), in terms of the arguments. -/
theorem logStdArr_apply (c : Dev nD) (b : Fin 16) (l : Fin 128) (a k : Fin 32) :
    StageA.logStdArr (V1 m ρ) c (ix4 b l a k) = csLogStd (emitLogStdOf m c) (childLogStdOf m c) b l a k := by
  show prodLogStd (W1 m ρ c (Proc.devRef .tc main_v17) (ix3 b l k)) (W1 m ρ c (Proc.devRef .tc main_v3) (ix2 a k)) = _
  rw [entry_emitLogStd, entry_childLogStd, squeezeTable]
  rfl

/-- Stage B's array, row (b, t, a), entry (k, d), in terms of the arguments. -/
theorem scaleArr_apply (c : Dev nD) (b : Fin 16) (t : Fin 127) (a k d : Fin 32) :
    StageB.scaleArr (V3 m ρ) c (ix3 (rowOf b t a) k d)
      = cspLogScale (emitMuOf m c) (emitLogStdOf m c) (childMuOf m c) (childLogStdOf m c) (parentMuOf m c) (parentLogStdOf m c) b t a k d := by
  show prodLogScale (W3 m ρ c (Proc.devRef .tc main_v21) (ix2 (rowOf b t a) k)) (W3 m ρ c (Proc.devRef .tc main_v22) (ix2 (rowOf b t a) k))
      (W3 m ρ c (Proc.devRef .tc main_v0) (ix2 k d)) (W3 m ρ c (Proc.devRef .tc main_v1) (ix2 k d)) = _
  rw [rows_mean, rows_logStd, mid_mean, mid_logStd, rows_apply, rows_apply, meanArr_apply, logStdArr_apply,
    mid_parentMu, mid_parentLogStd, entry_parentMu, entry_parentLogStd, squeezeTable, squeezeTable]
  rfl

/-! ## The five results -/

/-- RESULT 0: the log-scales of the second product. -/
theorem result_scale (c : Dev nD) :
    W5 m ρ c (Proc.devRef .tc main_v24)
      = outScale (emitMuOf m c) (emitLogStdOf m c) (childMuOf m c) (childLogStdOf m c) (parentMuOf m c) (parentLogStdOf m c) := by
  rw [out_scale]
  funext i
  have h5 : (i 5).val < 1 := (i 5).isLt
  have h6 : (i 6).val < 1 := (i 6).isLt
  have h7 : (i 7).val < 1 := (i 7).isLt
  refine (shapeCast_apply _ shapeCasts_S65024x32x32_S16x127x32x32x32x1x1x1 i (ix3 (rowOf (i 0) (i 1) (i 2)) (i 3) (i 4))
    (by rewrite [Shape.rowMajor_val_three, Shape.rowMajor_val_eight]
        show ((((i 0).val * 127 + (i 1).val) * 32 + (i 2).val) * 32 + (i 3).val) * 32 + (i 4).val
          = (((((((i 0).val * 127 + (i 1).val) * 32 + (i 2).val) * 32 + (i 3).val) * 32 + (i 4).val) * 1 + (i 5).val) * 1 + (i 6).val) * 1 + (i 7).val
        omega)).trans ?_
  exact scaleArr_apply m ρ c (i 0) (i 1) (i 2) (i 3) (i 4)

/-- RESULT 1: the means of the first product. -/
theorem result_mean (c : Dev nD) :
    W5 m ρ c (Proc.devRef .tc main_v25) = outMean (emitMuOf m c) (emitLogStdOf m c) (childMuOf m c) (childLogStdOf m c) := by
  rw [out_mean]
  funext i
  have h4 : (i 4).val < 1 := (i 4).isLt
  have h5 : (i 5).val < 1 := (i 5).isLt
  have h6 : (i 6).val < 1 := (i 6).isLt
  refine (shapeCast_apply _ shapeCasts_S16x128x32x32_S16x128x32x32x1x1x1 i (ix4 (i 0) (i 1) (i 2) (i 3))
    (by rewrite [Shape.rowMajor_val_four, Shape.rowMajor_val_seven]
        show (((i 0).val * 128 + (i 1).val) * 32 + (i 2).val) * 32 + (i 3).val
          = ((((((i 0).val * 128 + (i 1).val) * 32 + (i 2).val) * 32 + (i 3).val) * 1 + (i 4).val) * 1 + (i 5).val) * 1 + (i 6).val
        omega)).trans ?_
  exact meanArr_apply m ρ c (i 0) (i 1) (i 2) (i 3)

/-- RESULT 2: the log-standard-deviations of the first product. -/
theorem result_logStd (c : Dev nD) :
    W5 m ρ c (Proc.devRef .tc main_v26) = outLogStd (emitLogStdOf m c) (childLogStdOf m c) := by
  rw [out_logStd]
  funext i
  have h4 : (i 4).val < 1 := (i 4).isLt
  have h5 : (i 5).val < 1 := (i 5).isLt
  have h6 : (i 6).val < 1 := (i 6).isLt
  refine (shapeCast_apply _ shapeCasts_S16x128x32x32_S16x128x32x32x1x1x1 i (ix4 (i 0) (i 1) (i 2) (i 3))
    (by rewrite [Shape.rowMajor_val_four, Shape.rowMajor_val_seven]
        show (((i 0).val * 128 + (i 1).val) * 32 + (i 2).val) * 32 + (i 3).val
          = ((((((i 0).val * 128 + (i 1).val) * 32 + (i 2).val) * 32 + (i 3).val) * 1 + (i 4).val) * 1 + (i 5).val) * 1 + (i 6).val
        omega)).trans ?_
  exact logStdArr_apply m ρ c (i 0) (i 1) (i 2) (i 3)

/-- A [32, 32] table given four unit axes and repeated over every sentence and position: entry (b, l, p, q, 0, 0)
    is the table's (p, q). -/
theorem repeated_apply {α : Type} (x : S32x32.Idx → α) (i : S16x128x32x32x1x1.Idx) :
    broadcastInDim S16x128x32x32x1x1 ![0, 1, 2, 3, 4, 5] bcast_S1x1x32x32x1x1_S16x128x32x32x1x1_0_1_2_3_4_5
        (shapeCast S1x1x32x32x1x1 x shapeCasts_S32x32_S1x1x32x32x1x1) i
      = x (ix2 (i 2) (i 3)) := by
  refine (broadcastInDim_apply _ bcast_S1x1x32x32x1x1_S16x128x32x32x1x1_0_1_2_3_4_5 _ i
    (ix6 (0 : Fin 1) (0 : Fin 1) (i 2) (i 3) (0 : Fin 1) (0 : Fin 1)) (fun d => match d with
      | ⟨0, _⟩ => by show 0 = if (1 : Nat) = 1 then 0 else (i 0).val; rw [if_pos rfl]
      | ⟨1, _⟩ => by show 0 = if (1 : Nat) = 1 then 0 else (i 1).val; rw [if_pos rfl]
      | ⟨2, _⟩ => by show (i 2).val = if (32 : Nat) = 1 then 0 else (i 2).val; rw [if_neg (by decide)]
      | ⟨3, _⟩ => by show (i 3).val = if (32 : Nat) = 1 then 0 else (i 3).val; rw [if_neg (by decide)]
      | ⟨4, _⟩ => by show 0 = if (1 : Nat) = 1 then 0 else (i 4).val; rw [if_pos rfl]
      | ⟨5, _⟩ => by show 0 = if (1 : Nat) = 1 then 0 else (i 5).val; rw [if_pos rfl])).trans ?_
  exact shapeCast_apply x shapeCasts_S32x32_S1x1x32x32x1x1 (ix6 (0 : Fin 1) (0 : Fin 1) (i 2) (i 3) (0 : Fin 1) (0 : Fin 1)) (ix2 (i 2) (i 3))
    (by rewrite [Shape.rowMajor_val_two, Shape.rowMajor_val_six]
        show (i 2).val * 32 + (i 3).val = ((((0 * 1 + 0) * 32 + (i 2).val) * 32 + (i 3).val) * 1 + 0) * 1 + 0; omega)

/-- RESULT 3: the parent-transition means, repeated. -/
theorem result_parentMu (c : Dev nD) : W5 m ρ c (Proc.devRef .tc main_v28) = outTrans (parentMuOf m c) := by
  rw [out_parentMu, entry_parentMu]
  funext i
  exact (repeated_apply _ i).trans (squeezeTable _ (i 2) (i 3))

/-- RESULT 4: the parent-transition log-standard-deviations, repeated. -/
theorem result_parentLogStd (c : Dev nD) : W5 m ρ c (Proc.devRef .tc main_v30) = outTrans (parentLogStdOf m c) := by
  rw [out_parentLogStd, entry_parentLogStd]
  funext i
  exact (repeated_apply _ i).trans (squeezeTable _ (i 2) (i 3))

end Cert.KernelIdeal.Glue

end
-- ==== Proof.RefStageA.lean ====
/-
  The reference's stage A, read one entry at a time.

  The reference looks the emission Gaussians up per token, reshapes and broadcasts them against the child-transition
  tables, and evaluates the product of two Gaussians entrywise.  Every operation between the look-ups and the results
  either acts entrywise or only moves entries (a reshape that appends unit axes, a broadcast along new or unit axes).
  So the entry (b, l, a, k) of a result is the scalar expression of the specification at the emission entry (b, l, k)
  and the table entry (a, k); what has to be shown is only that the composed index maps land on those entries.
  The look-ups themselves stay unopened: they enter only as arrays indexed by (b, l, k).
-/
import proofs.«176982_j65566970741220_1_alg».proof.Proof.Gen.ReferenceIdeal.Read
import proofs.«176982_j65566970741220_1_alg».proof.Proof.GaussProduct

noncomputable section
namespace Cert.ReferenceIdeal.RefValue
open Cert.ReferenceIdeal Cert.ReferenceIdeal.Read Cert.GaussProduct Idealize.ShloMosaic Idealize.ShloMosaic.ValueIdx

/-! ## Where the layout operations read -/

/-- Appending two unit axes to a 16 × 128 × 32 array keeps every entry in place: in row-major order the entry
    (i₀, i₁, i₂, 0, 0) has offset (i₀ · 128 + i₁) · 32 + i₂, which is the offset of (i₀, i₁, i₂). -/
private theorem reshape_mean_idx (i : S16x128x32x1x1.Idx) : idx_main_v7 i = ix3 (i 0) (i 1) (i 2) := by
  have h0 : (i 0).val < 16 := (i 0).isLt
  have h1 : (i 1).val < 128 := (i 1).isLt
  have h2 : (i 2).val < 32 := (i 2).isLt
  have h3 : (i 3).val < 1 := (i 3).isLt
  have h4 : (i 4).val < 1 := (i 4).isLt
  funext a
  apply Fin.ext
  match a with
  | ⟨0, _⟩ => show (((((i 0).val * 128 + (i 1).val) * 32 + (i 2).val) * 1 + (i 3).val) * 1 + (i 4).val) / 4096 = (i 0).val; omega
  | ⟨1, _⟩ => show (((((i 0).val * 128 + (i 1).val) * 32 + (i 2).val) * 1 + (i 3).val) * 1 + (i 4).val) / 32 % 128 = (i 1).val; omega
  | ⟨2, _⟩ => show (((((i 0).val * 128 + (i 1).val) * 32 + (i 2).val) * 1 + (i 3).val) * 1 + (i 4).val) % 32 = (i 2).val; omega

/-- The same reshape, applied to the log-standard-deviations. -/
private theorem reshape_logStd_idx (i : S16x128x32x1x1.Idx) : idx_main_v15 i = ix3 (i 0) (i 1) (i 2) := by
  have h0 : (i 0).val < 16 := (i 0).isLt
  have h1 : (i 1).val < 128 := (i 1).isLt
  have h2 : (i 2).val < 32 := (i 2).isLt
  have h3 : (i 3).val < 1 := (i 3).isLt
  have h4 : (i 4).val < 1 := (i 4).isLt
  funext a
  apply Fin.ext
  match a with
  | ⟨0, _⟩ => show (((((i 0).val * 128 + (i 1).val) * 32 + (i 2).val) * 1 + (i 3).val) * 1 + (i 4).val) / 4096 = (i 0).val; omega
  | ⟨1, _⟩ => show (((((i 0).val * 128 + (i 1).val) * 32 + (i 2).val) * 1 + (i 3).val) * 1 + (i 4).val) / 32 % 128 = (i 1).val; omega
  | ⟨2, _⟩ => show (((((i 0).val * 128 + (i 1).val) * 32 + (i 2).val) * 1 + (i 3).val) * 1 + (i 4).val) % 32 = (i 2).val; omega

/-- A transition table broadcast along new unit axes for sentence and position (and the two component axes) is read at
    the label pair: the entry (·, ·, a, k, …) comes from the table's (a, k). -/
private theorem trans_mean_idx (i : S1x1x32x32x1x1x1.Idx) : idx_main_v18 i = tix (i 2) (i 3) := by
  funext a
  apply Fin.ext
  match a with
  | ⟨0, _⟩ => rfl
  | ⟨1, _⟩ => rfl
  | ⟨2, _⟩ => rfl
  | ⟨3, _⟩ => rfl

/-- The same broadcast, applied to the table of log-standard-deviations. -/
private theorem trans_logStd_idx (i : S1x1x32x32x1x1x1.Idx) : idx_main_v19 i = tix (i 2) (i 3) := by
  funext a
  apply Fin.ext
  match a with
  | ⟨0, _⟩ => rfl
  | ⟨1, _⟩ => rfl
  | ⟨2, _⟩ => rfl
  | ⟨3, _⟩ => rfl

/-- A parent-transition table broadcast first along unit axes and then over every sentence and position is read at the
    label pair: the entry (b, l, a, k, …) comes from the table's (a, k). -/
private theorem out_mean_idx (i : S16x128x32x32x1x1.Idx) : idx_main_v96 (idx_main_v97 i) = tix (i 2) (i 3) := by
  funext a
  apply Fin.ext
  match a with
  | ⟨0, _⟩ => rfl
  | ⟨1, _⟩ => rfl
  | ⟨2, _⟩ => rfl
  | ⟨3, _⟩ => rfl

/-- The same two broadcasts, applied to the table of log-standard-deviations. -/
private theorem out_logStd_idx (i : S16x128x32x32x1x1.Idx) : idx_main_v98 (idx_main_v99 i) = tix (i 2) (i 3) := by
  funext a
  apply Fin.ext
  match a with
  | ⟨0, _⟩ => rfl
  | ⟨1, _⟩ => rfl
  | ⟨2, _⟩ => rfl
  | ⟨3, _⟩ => rfl

/-! ## The intermediate arrays, read at an index -/

/-- The emission means with a unit axis for the parent label: entry (b, l, ·, k, …) is the looked-up mean at (b, l, k). -/
private theorem emitMean_apply (x0 : (⟨S16x128, .i32⟩ : BufTy).Contents (Elt Ideal)) (x5 : (⟨S50000x32, .f32⟩ : BufTy).Contents (Elt Ideal)) (i : S16x128x1x32x1x1x1.Idx) :
    val_main_v16 (F := Ideal) x0 x5 i = (val_main_v6 (F := Ideal) x0 x5 : Emit) (ix3 (i 0) (i 1) (i 3)) := by
  rw [val_main_v16_apply, val_main_v7_apply, reshape_mean_idx]
  rfl

/-- The emission log-standard-deviations with a unit axis for the parent label. -/
private theorem emitLogStd_apply (x0 : (⟨S16x128, .i32⟩ : BufTy).Contents (Elt Ideal)) (x6 : (⟨S50000x32, .f32⟩ : BufTy).Contents (Elt Ideal)) (i : S16x128x1x32x1x1x1.Idx) :
    val_main_v17 (F := Ideal) x0 x6 i = (val_main_v14 (F := Ideal) x0 x6 : Emit) (ix3 (i 0) (i 1) (i 3)) := by
  rw [val_main_v17_apply, val_main_v15_apply, reshape_logStd_idx]
  rfl

/-- The emission variances e^{2·v}. -/
private theorem emitVar_apply (x0 : (⟨S16x128, .i32⟩ : BufTy).Contents (Elt Ideal)) (x6 : (⟨S50000x32, .f32⟩ : BufTy).Contents (Elt Ideal)) (i : S16x128x1x32x1x1x1.Idx) :
    val_main_v22 (F := Ideal) x0 x6 i
      = Ideal.exp (two * (val_main_v14 (F := Ideal) x0 x6 : Emit) (ix3 (i 0) (i 1) (i 3))) := by
  rw [val_main_v22_apply, val_main_v21_apply, val_main_v20_apply, val_main_cst_apply, emitLogStd_apply]
  rfl

/-- The child-transition means with unit axes for sentence and position: entry (·, ·, a, k, …) is the table's (a, k). -/
private theorem transMean_apply (x3 : (⟨S32x32x1x1, .f32⟩ : BufTy).Contents (Elt Ideal)) (i : S1x1x32x32x1x1x1.Idx) :
    val_main_v18 (F := Ideal) x3 i = (x3 : Trans) (tix (i 2) (i 3)) := by
  rw [val_main_v18_apply, trans_mean_idx]

/-- The child-transition log-standard-deviations with unit axes for sentence and position. -/
private theorem transLogStd_apply (x4 : (⟨S32x32x1x1, .f32⟩ : BufTy).Contents (Elt Ideal)) (i : S1x1x32x32x1x1x1.Idx) :
    val_main_v19 (F := Ideal) x4 i = (x4 : Trans) (tix (i 2) (i 3)) := by
  rw [val_main_v19_apply, trans_logStd_idx]

/-- The child-transition variances e^{2·v}. -/
private theorem transVar_apply (x4 : (⟨S32x32x1x1, .f32⟩ : BufTy).Contents (Elt Ideal)) (i : S1x1x32x32x1x1x1.Idx) :
    val_main_v25 (F := Ideal) x4 i = Ideal.exp (two * (x4 : Trans) (tix (i 2) (i 3))) := by
  rw [val_main_v25_apply, val_main_v24_apply, val_main_v23_apply, val_main_cst_3_apply, transLogStd_apply]
  rfl

/-- The sum of the two variances at (b, l, a, k). -/
private theorem varSum_apply (x0 : (⟨S16x128, .i32⟩ : BufTy).Contents (Elt Ideal)) (x4 : (⟨S32x32x1x1, .f32⟩ : BufTy).Contents (Elt Ideal)) (x6 : (⟨S50000x32, .f32⟩ : BufTy).Contents (Elt Ideal)) (j : S16x128x32x32x1x1x1.Idx) :
    val_main_v28 (F := Ideal) x0 x4 x6 j
      = varSum ((val_main_v14 (F := Ideal) x0 x6 : Emit) (ix3 (j 0) (j 1) (j 3))) ((x4 : Trans) (tix (j 2) (j 3))) := by
  rw [val_main_v28_apply, val_main_v26_apply, val_main_v27_apply, emitVar_apply, transVar_apply]
  rfl

/-! ## The results -/

/-- Stage A's mean: (m₁ · e^{2·v₂} + m₂ · e^{2·v₁}) / S at the emission entry (b, l, k) and the table entry (a, k). -/
theorem mean_apply (x0 : (⟨S16x128, .i32⟩ : BufTy).Contents (Elt Ideal)) (x3 x4 : (⟨S32x32x1x1, .f32⟩ : BufTy).Contents (Elt Ideal))
    (x5 x6 : (⟨S50000x32, .f32⟩ : BufTy).Contents (Elt Ideal)) (j : S16x128x32x32x1x1x1.Idx) :
    val_main_v47 (F := Ideal) x0 x3 x4 x5 x6 j
      = csMean (val_main_v6 (F := Ideal) x0 x5) (val_main_v14 (F := Ideal) x0 x6) x3 x4 (j 0) (j 1) (j 2) (j 3) := by
  rw [val_main_v47_apply, val_main_v46_apply, val_main_v42_apply, val_main_v45_apply,
    val_main_v40_apply, val_main_v41_apply, val_main_v43_apply, val_main_v44_apply,
    emitMean_apply, transVar_apply, transMean_apply, emitVar_apply, varSum_apply]
  rfl

/-- Stage A's log-standard-deviation: (v₁ + v₂) − ½ · log S at the same entries. -/
theorem logStd_apply (x0 : (⟨S16x128, .i32⟩ : BufTy).Contents (Elt Ideal)) (x4 : (⟨S32x32x1x1, .f32⟩ : BufTy).Contents (Elt Ideal))
    (x6 : (⟨S50000x32, .f32⟩ : BufTy).Contents (Elt Ideal)) (j : S16x128x32x32x1x1x1.Idx) :
    val_main_v53 (F := Ideal) x0 x4 x6 j = csLogStd (val_main_v14 (F := Ideal) x0 x6) x4 (j 0) (j 1) (j 2) (j 3) := by
  rw [val_main_v53_apply, val_main_v50_apply, val_main_v52_apply, val_main_v48_apply, val_main_v49_apply,
    val_main_v51_apply, val_main_cst_6_apply, val_main_v29_apply,
    emitLogStd_apply, transLogStd_apply, varSum_apply]
  rfl

/-- The parent-transition means repeated over every sentence and position: entry (b, l, a, k, …) is the table's (a, k). -/
theorem trans_mu_eq (x1 : (⟨S32x32x1x1, .f32⟩ : BufTy).Contents (Elt Ideal)) : val_main_v97 (F := Ideal) x1 = outTrans x1 := by
  funext i
  rw [val_main_v97_apply, val_main_v96_apply, out_mean_idx]
  rfl

/-- The parent-transition log-standard-deviations repeated over every sentence and position. -/
theorem trans_var_eq (x2 : (⟨S32x32x1x1, .f32⟩ : BufTy).Contents (Elt Ideal)) : val_main_v99 (F := Ideal) x2 = outTrans x2 := by
  funext i
  rw [val_main_v99_apply, val_main_v98_apply, out_logStd_idx]
  rfl

end Cert.ReferenceIdeal.RefValue
end
-- ==== Proof.RefStageB.lean ====
/-
  The reference's second Gaussian product, read one entry at a time.

  The second product multiplies the first product's Gaussian at (b, t, a, k), for every position t but the last, by the
  parent-transition Gaussian of the label pair (k, c), and keeps the log-scale

      −½ · ((log 2π + log S) + (m₁ − m₂)² / S),      S = e^{2·v₁} + e^{2·v₂},

  summed over a last axis that has a single entry.  Read at the entry (b, t, a, k, c) every operation of the chain is
  the scalar operation on its operands' entries; a sum of one term started from 0 is that term; and the four arrays at
  the leaves are read at indices that the broadcasts and the slice compose: the first product's mean and
  log-standard-deviation at (b, t, a, k) with their three unit axes at 0, the two transition tables at (k, c) with
  their two unit axes at 0.  The first product's two results stay whole terms here: nothing below looks inside them.
-/
import proofs.«176982_j65566970741220_1_alg».proof.Proof.Gen.ReferenceIdeal.Read
import proofs.«176982_j65566970741220_1_alg».proof.Proof.GaussProduct

noncomputable section
namespace Cert.ReferenceIdeal.RefValue
open Cert.ReferenceIdeal Cert.ReferenceIdeal.Read Cert.GaussProduct Idealize.ShloMosaic Idealize.ShloMosaic.ValueIdx

/-! ## Which entry of each leaf meets the entry (b, t, a, k, c) of the result

Each composed index is compared with the named one coordinate by coordinate.  A coordinate that survives the
broadcasts is the result's own coordinate (position t of the 127 kept positions is position t of the 128); a
coordinate on a unit axis is 0 on both sides. -/

/-- The first product's mean is read at (b, t, a, k): the slice keeps the position, the broadcasts drop c. -/
private theorem meanIdx_eq (i : S16x127x32x32x32x1x1x1.Idx) :
    idx_main_v55 (idx_main_v56 (idx_main_v73 (idx_main_v95 i 0))) = csIdx (i 0) (pos (i 1)) (i 2) (i 3) :=
  funext fun a => Fin.ext (by
    match a with
    | ⟨0, _⟩ => rfl | ⟨1, _⟩ => rfl | ⟨2, _⟩ => rfl | ⟨3, _⟩ => rfl
    | ⟨4, _⟩ => rfl | ⟨5, _⟩ => rfl | ⟨6, _⟩ => rfl)

/-- The first product's log-standard-deviation is read at the same (b, t, a, k). -/
private theorem logStdIdx_eq (i : S16x127x32x32x32x1x1x1.Idx) :
    idx_main_v57 (idx_main_v58 (idx_main_v67 (idx_main_v95 i 0))) = csIdx (i 0) (pos (i 1)) (i 2) (i 3) :=
  funext fun a => Fin.ext (by
    match a with
    | ⟨0, _⟩ => rfl | ⟨1, _⟩ => rfl | ⟨2, _⟩ => rfl | ⟨3, _⟩ => rfl
    | ⟨4, _⟩ => rfl | ⟨5, _⟩ => rfl | ⟨6, _⟩ => rfl)

/-- The parent-transition mean is read at the label pair (k, c): the broadcasts drop b, t and a. -/
private theorem transMeanIdx_eq (i : S16x127x32x32x32x1x1x1.Idx) :
    idx_main_v59 (idx_main_v74 (idx_main_v95 i 0)) = tix (i 3) (i 4) :=
  funext fun a => Fin.ext (by
    match a with
    | ⟨0, _⟩ => rfl | ⟨1, _⟩ => rfl | ⟨2, _⟩ => rfl | ⟨3, _⟩ => rfl)

/-- The parent-transition log-standard-deviation is read at the same (k, c). -/
private theorem transLogStdIdx_eq (i : S16x127x32x32x32x1x1x1.Idx) :
    idx_main_v60 (idx_main_v68 (idx_main_v95 i 0)) = tix (i 3) (i 4) :=
  funext fun a => Fin.ext (by
    match a with
    | ⟨0, _⟩ => rfl | ⟨1, _⟩ => rfl | ⟨2, _⟩ => rfl | ⟨3, _⟩ => rfl)

/-! ## The log-scale of the second product at an entry -/

/-- The entry (b, t, a, k, c) of the second product's log-scale is the scalar log-scale of the first product's
    Gaussian at (b, t, a, k) and the parent-transition Gaussian at (k, c).  The sum over the one-entry last axis,
    started from 0, is its only term; below it the chain is, operation for operation, the scalar expression. -/
theorem scale_apply (x0 : (⟨S16x128, .i32⟩ : BufTy).Contents (Elt Ideal)) (x1 x2 x3 x4 : (⟨S32x32x1x1, .f32⟩ : BufTy).Contents (Elt Ideal))
    (x5 x6 : (⟨S50000x32, .f32⟩ : BufTy).Contents (Elt Ideal)) (i : S16x127x32x32x32x1x1x1.Idx) :
    val_main_v95 (F := Ideal) x0 x1 x2 x3 x4 x5 x6 i
      = prodLogScale (val_main_v47 (F := Ideal) x0 x3 x4 x5 x6 (csIdx (i 0) (pos (i 1)) (i 2) (i 3)))
          (val_main_v53 (F := Ideal) x0 x4 x6 (csIdx (i 0) (pos (i 1)) (i 2) (i 3)))
          (x1 (tix (i 3) (i 4))) (x2 (tix (i 3) (i 4))) := by
  -- a sum over an axis of one entry is its one term
  rw [val_main_v95_apply, Fin.sum_univ_one]
  -- every operation of the chain, read at the entry, down to the four leaves
  simp only [val_main_cst_13_apply, val_main_v80_apply, val_main_v79_apply, val_main_cst_11_apply,
    val_main_v78_apply, val_main_v72_apply, val_main_v71_apply, val_main_cst_10_apply, val_main_v70_apply,
    val_main_v69_apply, val_main_v67_apply, val_main_v63_apply, val_main_v62_apply, val_main_v61_apply,
    val_main_cst_8_apply, val_main_v58_apply, val_main_v57_apply, val_main_v68_apply, val_main_v66_apply,
    val_main_v65_apply, val_main_v64_apply, val_main_cst_9_apply, val_main_v60_apply, val_main_v77_apply,
    val_main_v76_apply, val_main_v75_apply, val_main_v73_apply, val_main_v56_apply, val_main_v55_apply,
    val_main_v74_apply, val_main_v59_apply]
  -- the leaves' composed indices are the named ones
  rw [meanIdx_eq i, logStdIdx_eq i, transMeanIdx_eq i, transLogStdIdx_eq i]
  -- the sum starts from the word of 0, which is 0; what is left is the scalar expression itself
  simp only [Ideal.ofBits_def, Ideal.ofBits_zero_f32, zero_add, Ideal.mulf_def, Ideal.addf_def, Ideal.subf_def,
    Ideal.hostDivf_def, Ideal.hostUnary_exp_def, Ideal.hostUnary_log_def]
  rfl

end Cert.ReferenceIdeal.RefValue
end
-- ==== Proof.lean ====
/-
  Two programs that evaluate the potentials of a latent-variable CRF whose potentials are Gaussians in the
  (mean, log-standard-deviation) parameterisation, and the proof that they compute the same five arrays.

  Both look the emission Gaussians of 16 × 128 tokens up in two [50000, 32] tables and multiply them, label pair by label
  pair, by the child-transition Gaussians (stage A: a mean and a log-standard-deviation per sentence, position and
  label pair); both then multiply that product, at every position but the last, by the parent-transition Gaussians and
  keep its log-scale (stage B); both return the two parent-transition tables repeated over every sentence and position.
  The product of Gaussians (m₁, v₁), (m₂, v₂) is, with S = e^{2·v₁} + e^{2·v₂},
      mean (m₁ · e^{2·v₂} + m₂ · e^{2·v₁}) / S,   log-std (v₁ + v₂) − ½ · log S,   log-scale −½ · ((log 2π + log S) + (m₁ − m₂)² / S).

  One program runs each stage as a grid of blocks (16 row blocks, then 64 blocks of 1016 rows of a 65024-row layout of
  stage A's results) with plain layout changes before, between and after; the other broadcasts everything to a common
  shape with unit axes and evaluates the expressions entrywise, the log-scale summed over a last axis of one entry.
  On the extended reals the two evaluate the same three expressions operation for operation, with the same float words
  for 2, ½, −½ and log 2π; so each result entry is, on both sides, the same scalar function of the same entries of the
  arguments (module GaussProduct), and no law of arithmetic is needed — not even one that would need finite inputs.
  The token look-up is one and the same operation of the tokens and the table on both sides and is never opened.

  The three runs: the blocked program's are its generated frames; its run with the results named is the same launch
  read once more (KernelResults), the regions' values are read off the blocks (StageA, StageB) and carried through the
  layout changes (HostGlue); the entrywise program's run and its reading at an index are generated, and joined to the
  specification in RefStageA and RefStageB.
-/
import proofs.«176982_j65566970741220_1_alg».proof.Defs
import proofs.«176982_j65566970741220_1_alg».proof.Proof.Gen.Kernel
import proofs.«176982_j65566970741220_1_alg».proof.Proof.Gen.Kernel.Skeleton
import proofs.«176982_j65566970741220_1_alg».proof.Proof.Gen.Kernel.Launch
import proofs.«176982_j65566970741220_1_alg».proof.Proof.Gen.Kernel.Points
import proofs.«176982_j65566970741220_1_alg».proof.Proof.Gen.Kernel.Frame
import proofs.«176982_j65566970741220_1_alg».proof.Proof.Gen.KernelIdeal
import proofs.«176982_j65566970741220_1_alg».proof.Proof.Gen.KernelIdeal.Skeleton
import proofs.«176982_j65566970741220_1_alg».proof.Proof.Gen.KernelIdeal.Launch
import proofs.«176982_j65566970741220_1_alg».proof.Proof.Gen.KernelIdeal.Points
import proofs.«176982_j65566970741220_1_alg».proof.Proof.Gen.KernelIdeal.Frame
import proofs.«176982_j65566970741220_1_alg».proof.Proof.Gen.ReferenceIdeal
import proofs.«176982_j65566970741220_1_alg».proof.Proof.Gen.Pre_finite_inputs
import proofs.«176982_j65566970741220_1_alg».proof.Proof.Gen.ReferenceIdeal.Run
import proofs.«176982_j65566970741220_1_alg».proof.Proof.Gen.ReferenceIdeal.Read
import proofs.«176982_j65566970741220_1_alg».proof.Proof.GaussProduct
import proofs.«176982_j65566970741220_1_alg».proof.Proof.KernelResults
import proofs.«176982_j65566970741220_1_alg».proof.Proof.HostGlue
import proofs.«176982_j65566970741220_1_alg».proof.Proof.RefStageA
import proofs.«176982_j65566970741220_1_alg».proof.Proof.RefStageB
import Idealize.ShloMosaic.Adequacy
import Idealize.ShloMosaic.Init

noncomputable section

/-! ## The entrywise program's results as whole arrays -/

namespace Cert.ReferenceIdeal.RefValue

open Cert.ReferenceIdeal Cert.ReferenceIdeal.Read Cert.GaussProduct Idealize.ShloMosaic Idealize.ShloMosaic.ValueIdx

/-- Stage A's means, as one array. -/
theorem mean_eq (x0 : (⟨S16x128, .i32⟩ : BufTy).Contents (Elt Ideal)) (x3 x4 : (⟨S32x32x1x1, .f32⟩ : BufTy).Contents (Elt Ideal))
    (x5 x6 : (⟨S50000x32, .f32⟩ : BufTy).Contents (Elt Ideal)) :
    val_main_v47 (F := Ideal) x0 x3 x4 x5 x6 = outMean (val_main_v6 (F := Ideal) x0 x5) (val_main_v14 (F := Ideal) x0 x6) x3 x4 :=
  funext fun j => mean_apply x0 x3 x4 x5 x6 j

/-- Stage A's log-standard-deviations, as one array. -/
theorem logStd_eq (x0 : (⟨S16x128, .i32⟩ : BufTy).Contents (Elt Ideal)) (x4 : (⟨S32x32x1x1, .f32⟩ : BufTy).Contents (Elt Ideal))
    (x6 : (⟨S50000x32, .f32⟩ : BufTy).Contents (Elt Ideal)) :
    val_main_v53 (F := Ideal) x0 x4 x6 = outLogStd (val_main_v14 (F := Ideal) x0 x6) x4 :=
  funext fun j => logStd_apply x0 x4 x6 j

/-- Stage B's log-scales, as one array: the entry (b, t, a, k, c) is the log-scale of stage A's Gaussian at
    (b, t, a, k), which is read at that entry in turn, and the parent-transition Gaussian at (k, c). -/
theorem scale_eq (x0 : (⟨S16x128, .i32⟩ : BufTy).Contents (Elt Ideal)) (x1 x2 x3 x4 : (⟨S32x32x1x1, .f32⟩ : BufTy).Contents (Elt Ideal))
    (x5 x6 : (⟨S50000x32, .f32⟩ : BufTy).Contents (Elt Ideal)) :
    val_main_v95 (F := Ideal) x0 x1 x2 x3 x4 x5 x6
      = outScale (val_main_v6 (F := Ideal) x0 x5) (val_main_v14 (F := Ideal) x0 x6) x3 x4 x1 x2 := by
  funext i
  rw [scale_apply, mean_apply, logStd_apply]
  rfl

/-- The look-up of the emission means is the same operation of the table and the tokens in both programs. -/
theorem lookupMu_eq (tok : (⟨S16x128, .i32⟩ : BufTy).Contents (Elt Ideal)) (tbl : (⟨S50000x32, .f32⟩ : BufTy).Contents (Elt Ideal)) :
    val_main_v6 (F := Ideal) tok tbl = Cert.KernelIdeal.Glue.lookup tbl tok := rfl

/-- The same for the emission log-standard-deviations. -/
theorem lookupLogStd_eq (tok : (⟨S16x128, .i32⟩ : BufTy).Contents (Elt Ideal)) (tbl : (⟨S50000x32, .f32⟩ : BufTy).Contents (Elt Ideal)) :
    val_main_v14 (F := Ideal) tok tbl = Cert.KernelIdeal.Glue.lookup tbl tok := rfl

end Cert.ReferenceIdeal.RefValue

/-! ## The claims -/

namespace Cert.Proof

open Idealize.ShloMosaic Idealize.ShloMosaic.TcCoe Idealize.SL.Sem Cert.GaussProduct

theorem frame_blocked : Cert.frame_Kernel := fun m ρ _ => Cert.Kernel.Gen.frame m ρ

theorem frame_blockedIdeal : Cert.frame_KernelIdeal := fun m ρ _ => Cert.KernelIdeal.Gen.frame m ρ

/-- The entrywise program's frame is its run with the results dropped. -/
theorem frame_entrywise : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing: the idealized program is the program's own text read on the extended reals. -/
theorem preserves : Cert.preserves_Kernel_KernelIdeal := trivial

/-- From memories that agree on the arguments both programs end with the five results at the specification's
    functions of the arguments: the blocked one by reading its run's last contents back through the layout changes and
    the two regions, the entrywise one by reading its composed terms at an index. -/
theorem algebraic : Cert.algebraic_KernelIdeal_ReferenceIdeal := by
  intro m ρ m' ρ' _ hagree
  refine ⟨fun c => outScale (Cert.KernelIdeal.Glue.emitMuOf m c) (Cert.KernelIdeal.Glue.emitLogStdOf m c) (Cert.KernelIdeal.Glue.childMuOf m c)
        (Cert.KernelIdeal.Glue.childLogStdOf m c) (Cert.KernelIdeal.Glue.parentMuOf m c) (Cert.KernelIdeal.Glue.parentLogStdOf m c),
    fun c => outMean (Cert.KernelIdeal.Glue.emitMuOf m c) (Cert.KernelIdeal.Glue.emitLogStdOf m c) (Cert.KernelIdeal.Glue.childMuOf m c)
        (Cert.KernelIdeal.Glue.childLogStdOf m c),
    fun c => outLogStd (Cert.KernelIdeal.Glue.emitLogStdOf m c) (Cert.KernelIdeal.Glue.childLogStdOf m c),
    fun c => outTrans (Cert.KernelIdeal.Glue.parentMuOf m c),
    fun c => outTrans (Cert.KernelIdeal.Glue.parentLogStdOf m c), ?_, ?_⟩
  · refine (θ_run Cert.KernelIdeal.defs _ _).mono (fun r h c => ?_) (Cert.KernelIdeal.Results.run (F := Ideal) m ρ)
    obtain ⟨h0, h1, h2, h3, h4, hargs⟩ := h c
    exact ⟨h0.trans (Cert.KernelIdeal.Glue.result_scale m ρ c), h1.trans (Cert.KernelIdeal.Glue.result_mean m ρ c),
      h2.trans (Cert.KernelIdeal.Glue.result_logStd m ρ c), h3.trans (Cert.KernelIdeal.Glue.result_parentMu m ρ c),
      h4.trans (Cert.KernelIdeal.Glue.result_parentLogStd m ρ c), hargs⟩
  · refine (θ_run Cert.ReferenceIdeal.defs _ _).mono (fun r h c => ?_) (Cert.ReferenceIdeal.Value.run (F := Ideal) m' ρ')
    obtain ⟨h0, h1, h2, h3, h4, hargs⟩ := h c
    obtain ⟨a0, a1, a2, a3, a4, a5, a6⟩ := hagree c
    refine ⟨h0.trans ?_, h1.trans ?_, h2.trans ?_, h3.trans ?_, h4.trans ?_, hargs⟩
    · rw [Cert.ReferenceIdeal.Read.val_main_v95_eq, Cert.ReferenceIdeal.RefValue.scale_eq,
        Cert.ReferenceIdeal.RefValue.lookupMu_eq, Cert.ReferenceIdeal.RefValue.lookupLogStd_eq, a0, a1, a2, a3, a4, a5, a6]
    · rw [Cert.ReferenceIdeal.Read.val_main_v47_eq, Cert.ReferenceIdeal.RefValue.mean_eq,
        Cert.ReferenceIdeal.RefValue.lookupMu_eq, Cert.ReferenceIdeal.RefValue.lookupLogStd_eq, a0, a3, a4, a5, a6]
    · rw [Cert.ReferenceIdeal.Read.val_main_v53_eq, Cert.ReferenceIdeal.RefValue.logStd_eq,
        Cert.ReferenceIdeal.RefValue.lookupLogStd_eq, a0, a4, a6]
    · rw [Cert.ReferenceIdeal.Read.val_main_v97_eq, Cert.ReferenceIdeal.RefValue.trans_mu_eq, a1]
    · rw [Cert.ReferenceIdeal.Read.val_main_v99_eq, Cert.ReferenceIdeal.RefValue.trans_var_eq, a2]

theorem claim : Cert.Claim := ⟨Cert.Kernel.Gen.facts, Cert.KernelIdeal.Gen.facts, Cert.ReferenceIdeal.Gen.facts, Cert.Pre_finite_inputs.Gen.facts,
  frame_blocked, frame_blockedIdeal, frame_entrywise, preserves, algebraic⟩

end Cert.Proof

end
